-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S64x512 : Shape := ⟨2, ![64, 512]⟩
abbrev S64 : Shape := ⟨1, ![64]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg3 : FVec F S64x512 .f32) (main_arg4 : FVec F S64 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x512 .f32 := Host.absf main_arg3
  let main_cst_8 : FVec F S_ .f32 := constant S_ .f32 0x00000000#32
  let main_v25 : FVec F S64x512 .f32 := broadcastInDim S64x512 ![] bcast_S_S64x512 main_cst_8
  let main_v26 : IVec S64x512 1 := cmpf .ogt main_v24 main_v25
  let main_c_9 : IVec S_ 1 := constantI S_ 1 1#1
  let main_v27 : IVec S_ 1 := (fun x v => Host.reduce IntOp.andi x v reducesTo_S64x512_S_d0_1 h_S_) main_v26 main_c_9
  let main_v28 : IVec S_ 1 := andi main_v23 main_v27
  main_v28

def fn {F : FTy → Type} [FloatOps F] (main_arg0 : FVec F S8192x512 .f32) (main_arg1 : FVec F S8192x512 .f32) (main_arg2 : FVec F S64x512 .f32) (main_arg3 : FVec F S64x512 .f32) (main_arg4 : FVec F S64 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg3 main_arg4 main_v13 main_v16
-- ==== Kernel.lean ====
abbrev S8192x512 : Shape := ⟨2, ![8192, 512]⟩
abbrev S64x512 : Shape := ⟨2, ![64, 512]⟩
abbrev S64 : Shape := ⟨1, ![64]⟩
abbrev S_ : Shape := ⟨0, ![]⟩
abbrev S512x64 : Shape := ⟨2, ![512, 64]⟩
abbrev S1x64 : Shape := ⟨2, ![1, 64]⟩
abbrev S8192x64 : Shape := ⟨2, ![8192, 64]⟩
abbrev S1024x512 : Shape := ⟨2, ![1024, 512]⟩
abbrev S1024x64 : Shape := ⟨2, ![1024, 64]⟩
abbrev S8192x8192 : Shape := ⟨2, ![8192, 8192]⟩
abbrev S2048x64 : Shape := ⟨2, ![2048, 64]⟩
abbrev S2048x1024 : Shape := ⟨2, ![2048, 1024]⟩

abbrev nBuf : Space → Nat
  | .hbm => 23
  | .vmem => 22
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S64x512, .f32⟩
  | .hbm, ⟨3, _⟩ => ⟨S64x512, .f32⟩
  | .hbm, ⟨4, _⟩ => ⟨S64, .f32⟩
  | .hbm, ⟨5, _⟩ => ⟨S64x512, .f32⟩
  | .hbm, ⟨6, _⟩ => ⟨S_, .f32⟩
  | .hbm, ⟨7, _⟩ => ⟨S64x512, .f32⟩
  | .hbm, ⟨8, _⟩ => ⟨S64x512, .f32⟩
  | .hbm, ⟨9, _⟩ => ⟨S64x512, .f32⟩
  | .hbm, ⟨10, _⟩ => ⟨S64x512, .f32⟩
  | .hbm, ⟨11, _⟩ => ⟨S64x512, .f32⟩
  | .hbm, ⟨12, _⟩ => ⟨S_, .f32⟩
  | .hbm, ⟨13, _⟩ => ⟨S64, .f32⟩
  | .hbm, ⟨14, _⟩ => ⟨S512x64, .f32⟩
  | .hbm, ⟨15, _⟩ => ⟨S512x64, .f32⟩
  | .hbm, ⟨16, _⟩ => ⟨S1x64, .f32⟩
  | .hbm, ⟨17, _⟩ => ⟨S1x64, .f32⟩
  | .hbm, ⟨18, _⟩ => ⟨S_, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S512x64, .f32⟩
  | .local _ .vmem, ⟨3, _⟩ => ⟨S512x64, .f32⟩
  | .local _ .vmem, ⟨4, _⟩ => ⟨S1x64, .f32⟩
  | .local _ .vmem, ⟨5, _⟩ => ⟨S1x64, .f32⟩
  | .local _ .vmem, ⟨6, _⟩ => ⟨S1024x64, .f32⟩
  | .local _ .vmem, ⟨7, _⟩ => ⟨S1024x64, .f32⟩
  | .local _ .vmem, ⟨8, _⟩ => ⟨S1024x512, .f32⟩
  | .local _ .vmem, ⟨9, _⟩ => ⟨S1024x512, .f32⟩
  | .local _ .vmem, ⟨10, _⟩ => ⟨S512x64, .f32⟩
  | .local _ .vmem, ⟨11, _⟩ => ⟨S512x64, .f32⟩
  | .local _ .vmem, ⟨12, _⟩ => ⟨S1x64, .f32⟩
  | .local _ .vmem, ⟨13, _⟩ => ⟨S1x64, .f32⟩
  | .local _ .vmem, ⟨14, _⟩ => ⟨S1024x64, .f32⟩
  | .local _ .vmem, ⟨15, _⟩ => ⟨S1024x64, .f32⟩
  | .local _ .vmem, ⟨16, _⟩ => ⟨S2048x64, .f32⟩
  | .local _ .vmem, ⟨17, _⟩ => ⟨S2048x64, .f32⟩
  | .local _ .vmem, ⟨18, _⟩ => ⟨S1024x64, .f32⟩
  | .local _ .vmem, ⟨19, _⟩ => ⟨S1024x64, .f32⟩
  | .local _ .vmem, ⟨20, _⟩ => ⟨S2048x1024, .f32⟩
  | .local _ .vmem, ⟨21, _⟩ => ⟨S2048x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  bcast_S_S64x512 : S_.BroadcastsInDim S64x512 (![] : Fin 0 → Fin S64x512.rank)
  reducesTo_S64x512_S64_d1 : S64x512.ReducesTo [1] S64
  h_S_ : 0 < S_.numel
  transposes_S64x512_S512x64_1_0 : S64x512.Transposes [1, 0] S512x64
  shapeCasts_S64_S1x64 : S64.ShapeCasts S1x64
  bcast_S_S1x64 : S_.BroadcastsInDim S1x64 (![] : Fin 0 → Fin S1x64.rank)
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  shapeCasts_S1024x64_S1024x64 : S1024x64.ShapeCasts S1024x64
  inb_S2048x1024_S2048x1024_0_0 : ∀ a, (![0, 0] : Fin 2 → Nat) a + S2048x1024.size a ≤ S2048x1024.size a
  h_S2048x1024 : 0 < S2048x1024.numel
  dot_S1024x512_S512x64_S1024x64_1_0_0_1_n_n_wf : DotDims.WF S1024x512 S512x64 S1024x64 [1] [0] [0] [1] [] []
  dot_S2048x64_S1024x64_S2048x1024_1_1_0_0_n_n_wf : DotDims.WF S2048x64 S1024x64 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x64.size a ≤ S8192x64.size a
  hwx0_5 : ∀ i : grid0.Coords, EltTy.bits .f32 = 32 ∨ (Rect.block (s := S8192x64) S1024x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x512.size a
  hwx1_0 : ∀ i : grid1.Coords, EltTy.bits .f32 = 32 ∨ (Rect.block (s := S8192x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x64.size a ≤ S512x64.size a
  hwx1_1 : ∀ i : grid1.Coords, EltTy.bits .f32 = 32 ∨ (Rect.block (s := S512x64) S512x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x64.size a ≤ S512x64.size a
  hwx1_2 : ∀ i : grid1.Coords, EltTy.bits .f32 = 32 ∨ (Rect.block (s := S512x64) S512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S8192x64.size a
  hwx1_5 : ∀ i : grid1.Coords, EltTy.bits .f32 = 32 ∨ (Rect.block (s := S8192x64) S1024x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S8192x64.size a
  hwx2_0 : ∀ i : grid2.Coords, EltTy.bits .f32 = 32 ∨ (Rect.block (s := S8192x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x64.size a ≤ S8192x64.size a
  hwx2_1 : ∀ i : grid2.Coords, EltTy.bits .f32 = 32 ∨ (Rect.block (s := S8192x64) S1024x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S8192x8192.size a
  hwx2_2 : ∀ i : grid2.Coords, EltTy.bits .f32 = 32 ∨ (Rect.block (s := S8192x8192) S2048x1024.size (cc2_transform_2 i) (hinb2_2 i)).WholeWords (EltTy.packing .f32)

variable [Facts₀]

def dot_S1024x512_S512x64_S1024x64_1_0_0_1_n_n : DotDims S1024x512 S512x64 S1024x64 where
  lhsContracting := [1]
  rhsContracting := [0]
  lhsNonContracting := [0]
  rhsNonContracting := [1]
  lhsBatch := []
  rhsBatch := []
  wf := dot_S1024x512_S512x64_S1024x64_1_0_0_1_n_n_wf
def dot_S2048x64_S1024x64_S2048x1024_1_1_0_0_n_n : DotDims S2048x64 S1024x64 S2048x1024 where
  lhsContracting := [1]
  rhsContracting := [1]
  lhsNonContracting := [0]
  rhsNonContracting := [0]
  lhsBatch := []
  rhsBatch := []
  wf := dot_S2048x64_S1024x64_S2048x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S512x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S512x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1024x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v12) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1024x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x512 : Shape := ⟨2, ![8192, 512]⟩
abbrev S64x512 : Shape := ⟨2, ![64, 512]⟩
abbrev S64 : Shape := ⟨1, ![64]⟩
abbrev S8192x1x512 : Shape := ⟨3, ![8192, 1, 512]⟩
abbrev S1x64x512 : Shape := ⟨3, ![1, 64, 512]⟩
abbrev S8192x64x512 : Shape := ⟨3, ![8192, 64, 512]⟩
abbrev S_ : Shape := ⟨0, ![]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩

abbrev nBuf : Space → Nat
  | .hbm => 36
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S64x512, .f32⟩
  | .hbm, ⟨3, _⟩ => ⟨S64x512, .f32⟩
  | .hbm, ⟨4, _⟩ => ⟨S64, .f32⟩
  | .hbm, ⟨5, _⟩ => ⟨S8192x1x512, .f32⟩
  | .hbm, ⟨6, _⟩ => ⟨S1x64x512, .f32⟩
  | .hbm, ⟨7, _⟩ => ⟨S8192x64x512, .f32⟩
  | .hbm, ⟨8, _⟩ => ⟨S8192x64x512, .f32⟩
  | .hbm, ⟨9, _⟩ => ⟨S8192x64x512, .f32⟩
  | .hbm, ⟨10, _⟩ => ⟨S1x64x512, .f32⟩
  | .hbm, ⟨11, _⟩ => ⟨S8192x64x512, .f32⟩
  | .hbm, ⟨12, _⟩ => ⟨S8192x64x512, .f32⟩
  | .hbm, ⟨13, _⟩ => ⟨S8192x64x512, .f32⟩
  | .hbm, ⟨14, _⟩ => ⟨S_, .f32⟩
  | .hbm, ⟨15, _⟩ => ⟨S8192x64, .f32⟩
  | .hbm, ⟨16, _⟩ => ⟨S8192x64, .f32⟩
  | .hbm, ⟨17, _⟩ => ⟨S8192x1x512, .f32⟩
  | .hbm, ⟨18, _⟩ => ⟨S1x64x512, .f32⟩
  | .hbm, ⟨19, _⟩ => ⟨S8192x64x512, .f32⟩
  | .hbm, ⟨20, _⟩ => ⟨S8192x64x512, .f32⟩
  | .hbm, ⟨21, _⟩ => ⟨S8192x64x512, .f32⟩
  | .hbm, ⟨22, _⟩ => ⟨S1x64x512, .f32⟩
  | .hbm, ⟨23, _⟩ => ⟨S8192x64x512, .f32⟩
  | .hbm, ⟨24, _⟩ => ⟨S8192x64x512, .f32⟩
  | .hbm, ⟨25, _⟩ => ⟨S8192x64x512, .f32⟩
  | .hbm, ⟨26, _⟩ => ⟨S_, .f32⟩
  | .hbm, ⟨27, _⟩ => ⟨S8192x64, .f32⟩
  | .hbm, ⟨28, _⟩ => ⟨S8192x64, .f32⟩
  | .hbm, ⟨29, _⟩ => ⟨S8192x64, .f32⟩
  | .hbm, ⟨30, _⟩ => ⟨S1x64, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S64x8192, .f32⟩
  | .hbm, ⟨35, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]

class Facts₀ : Prop where
  bcast_S8192x512_S8192x1x512_0_2 : S8192x512.BroadcastsInDim S8192x1x512 (![0, 2] : Fin 2 → Fin S8192x1x512.rank)
  bcast_S64x512_S1x64x512_1_2 : S64x512.BroadcastsInDim S1x64x512 (![1, 2] : Fin 2 → Fin S1x64x512.rank)
  bcast_S8192x1x512_S8192x64x512_0_1_2 : S8192x1x512.BroadcastsInDim S8192x64x512 (![0, 1, 2] : Fin 3 → Fin S8192x64x512.rank)
  bcast_S1x64x512_S8192x64x512_0_1_2 : S1x64x512.BroadcastsInDim S8192x64x512 (![0, 1, 2] : Fin 3 → Fin S8192x64x512.rank)
  reducesTo_S8192x64x512_S8192x64_d2 : S8192x64x512.ReducesTo [2] S8192x64
  h_S_ : 0 < S_.numel
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  dot_S8192x64_S64x8192_S8192x8192_1_0_0_1_n_n_wf : DotDims.WF S8192x64 S64x8192 S8192x8192 [1] [0] [0] [1] [] []

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.Spec.lean ====
/-
  The mathematics both programs compute, stated once, index by index, over the extended reals.

  Inputs: features `f` of shape [8192, 512], centres `mu` and widths `s` of shape [64, 512], weights `w` of shape [64].
  For a row `n` and a centre `k` the (negated) squared scaled distance is `-(∑ c, ((f n c - mu k c) / s k c)²)`, the response
  is its exponential (times `w k` on the left operand), and the result is the Gram-like matrix
  `out n m = ∑ k, left n k * right m k`.

  The kernel expands the square: with `r k c = 1 / (s k c * s k c)`,
  `((f - mu) / s)² = f² * r - 2 * f * (mu * r) + mu² * r`, so the exponent is
  `(0 - ∑ c, f² * r) + 2 * ∑ c, f * (mu * r) - ∑ c, mu² * r`, the two sums over `c` with a row of `f` being contractions against
  tables laid out [512, 64]. Float literals are kept as the words the programs print (`zeroW`, `oneW`, `twoW`); only the module
  that proves the expansion evaluates them.
-/
import Idealize.ShloMosaic.PureOps.Ideal
import Idealize.ShloMosaic.Lib.ValueIdx

noncomputable section

namespace Cert.Rbf

open Idealize.ShloMosaic Idealize.ShloMosaic.ValueIdx

/-- Features: 8192 rows of 512 channels. -/
abbrev Feat : Shape := ⟨2, ![8192, 512]⟩
/-- Centres and widths: 64 centres of 512 channels. -/
abbrev Tab : Shape := ⟨2, ![64, 512]⟩
/-- One weight per centre. -/
abbrev Wts : Shape := ⟨1, ![64]⟩
/-- A table transposed: 512 channels by 64 centres. -/
abbrev TabT : Shape := ⟨2, ![512, 64]⟩
/-- One row of 64 centres. -/
abbrev Row : Shape := ⟨2, ![1, 64]⟩
/-- Responses: 8192 rows by 64 centres. -/
abbrev Resp : Shape := ⟨2, ![8192, 64]⟩
/-- The result: 8192 by 8192. -/
abbrev Gram : Shape := ⟨2, ![8192, 8192]⟩

/-- The word of `+0.0`. -/
abbrev zeroW : EReal := Ideal.ofBits .f32 0x00000000#32
/-- The word of `1.0`. -/
abbrev oneW : EReal := Ideal.ofBits .f32 0x3F800000#32
/-- The word of `2.0`. -/
abbrev twoW : EReal := Ideal.ofBits .f32 0x40000000#32

/-! ## The kernel program's host tables -/

/-- `r k c = 1 / (s k c * s k c)`. -/
def invSq (s : Tab.Idx → EReal) : Tab.Idx → EReal := fun j => Ideal.div oneW (s j * s j)

/-- `r` transposed to [512, 64]. -/
def invT (s : Tab.Idx → EReal) : TabT.Idx → EReal := fun j => invSq s (ix2 (j 1) (j 0))

/-- `mu * r` transposed to [512, 64]. -/
def meanT (mu s : Tab.Idx → EReal) : TabT.Idx → EReal := fun j => mu (ix2 (j 1) (j 0)) * invSq s (ix2 (j 1) (j 0))

/-- The per-centre offset `∑ c, mu² * r` as a row [1, 64] (a host sum: the initial word plus the sum). -/
def offRow (mu s : Tab.Idx → EReal) : Row.Idx → EReal := fun j =>
  zeroW + ∑ c : Fin 512, (mu (ix2 (j 1) c) * mu (ix2 (j 1) c)) * invSq s (ix2 (j 1) c)

/-- The weights as a row [1, 64]. -/
def wRow (w : Wts.Idx → EReal) : Row.Idx → EReal := fun j => w (ix1 (j 1))

/-- A row of ones. -/
def onesRow : Row.Idx → EReal := fun _ => oneW

/-! ## The kernel's response, from tables `a`, `b` of shape [512, 64] and rows `t3`, `w` of shape [1, 64] -/

/-- `exp ((0 - ∑ c, f² * a) + 2 * ∑ c, f * b - t3) * w` at row `n = i 0` and centre `k = i 1`. -/
def respExpanded (f : Feat.Idx → EReal) (a b : TabT.Idx → EReal) (t3 w : Row.Idx → EReal) : Resp.Idx → EReal := fun i =>
  Ideal.exp (((zeroW - ∑ c : Fin 512, (f (ix2 (i 0) c) * f (ix2 (i 0) c)) * a (ix2 c (i 1)))
      + twoW * ∑ c : Fin 512, f (ix2 (i 0) c) * b (ix2 c (i 1))) - t3 (ix2 0 (i 1))) * w (ix2 0 (i 1))

/-- `out n m = ∑ k, p n k * q m k`. -/
def gram (p q : Resp.Idx → EReal) : Gram.Idx → EReal := fun i => ∑ k : Fin 64, p (ix2 (i 0) k) * q (ix2 (i 1) k)

/-! ## The reference's response -/

/-- `-(0 + ∑ c, ((f n c - mu k c) / s k c)²)`. -/
def negSqDist (f : Feat.Idx → EReal) (mu s : Tab.Idx → EReal) : Resp.Idx → EReal := fun i =>
  -(zeroW + ∑ c : Fin 512,
      Ideal.div (f (ix2 (i 0) c) - mu (ix2 (i 1) c)) (s (ix2 (i 1) c)) * Ideal.div (f (ix2 (i 0) c) - mu (ix2 (i 1) c)) (s (ix2 (i 1) c)))

/-- The weighted response `exp (negSqDist) * w k`. -/
def respRef (f : Feat.Idx → EReal) (mu s : Tab.Idx → EReal) (w : Wts.Idx → EReal) : Resp.Idx → EReal := fun i =>
  Ideal.exp (negSqDist f mu s i) * w (ix1 (i 1))

/-- The unweighted response `exp (negSqDist)`. -/
def respRefPlain (f : Feat.Idx → EReal) (mu s : Tab.Idx → EReal) : Resp.Idx → EReal := fun i =>
  Ideal.exp (negSqDist f mu s i)

/-! ## The domain: finite inputs, no zero width -/

/-- Every entry of `x` is a real number (neither infinity). -/
def AllReal {S : Shape} (x : S.Idx → EReal) : Prop := ∀ i, ∃ r : ℝ, x i = (r : EReal)

/-- No entry of `x` is zero. -/
def NoZero {S : Shape} (x : S.Idx → EReal) : Prop := ∀ i, x i ≠ 0

/-- The kernel program's result as a function of the five argument arrays. -/
def kernelResult (fi fj : Feat.Idx → EReal) (mu s : Tab.Idx → EReal) (w : Wts.Idx → EReal) : Gram.Idx → EReal :=
  gram (respExpanded fi (invT s) (meanT mu s) (offRow mu s) (wRow w))
       (respExpanded fj (invT s) (meanT mu s) (offRow mu s) onesRow)

/-- The reference's result as a function of the five argument arrays. -/
def referenceResult (fi fj : Feat.Idx → EReal) (mu s : Tab.Idx → EReal) (w : Wts.Idx → EReal) : Gram.Idx → EReal :=
  gram (respRef fi mu s w) (respRefPlain fj mu s)

end Cert.Rbf

end
-- ==== Proof.Region0Value.lean ====
import proofs.«173100_j65223373357286_1_alg».proof.Proof.Gen.KernelIdeal.Frame
import proofs.«173100_j65223373357286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-! ## The contraction of a [1024, 512] block against a [512, 64] table, at an index

The dot's dimension numbers contract the left operand's axis 1 with the right operand's axis 0; the left operand's
axis 0 and the right operand's axis 1 are the result's two axes. -/

/-- The left operand's row is the result's row. -/
theorem lhs_axis0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
/-- The left operand's column is the contraction index. -/
theorem lhs_axis1 (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
/-- The right operand's row is the contraction index. -/
theorem rhs_axis0 (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
/-- The right operand's column is the result's column. -/
theorem rhs_axis1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- The matrix product into a zero accumulator at row `p` and column `q`: the sum over the 512 channels of the
    left operand's row `p` times the right operand's column `q`. -/
theorem contraction_apply (l : FVec Ideal S1024x512 .bf16) (r : FVec Ideal S512x64 .bf16) (p : Fin 1024) (q : Fin 64) :
    matmul dot_S1024x512_S512x64_S1024x64_1_0_0_1_n_n none l r (constant S1024x64 .f32 0x00000000#32) (ix2 p q)
      = ∑ c : Fin 512, l (ix2 p c) * r (ix2 c q) := by
  simp only [matmul]
  rw [Ideal.matmul_constant_zero_apply, ← Equiv.sum_comp (ValueIdx.contrEquiv1 dot_S1024x512_S512x64_S1024x64_1_0_0_1_n_n 512 rfl rfl).symm]
  refine Finset.sum_congr rfl fun k _ => ?_
  have hk := ValueIdx.contrEquiv1_symm_val dot_S1024x512_S512x64_S1024x64_1_0_0_1_n_n 512 rfl rfl k
  have el : dot_S1024x512_S512x64_S1024x64_1_0_0_1_n_n.lhsIdx (ix2 p q) ((ValueIdx.contrEquiv1 dot_S1024x512_S512x64_S1024x64_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S1024x512_S512x64_S1024x64_1_0_0_1_n_n.rhsIdx (ix2 p q) ((ValueIdx.contrEquiv1 dot_S1024x512_S512x64_S1024x64_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-- A [1, 64] row spread over the 1024 rows reads, at row `p` and column `q`, the row's entry `q`. -/
theorem row_spread_apply (x : Vec Ideal S1x64 .f32) (p : Fin 1024) (q : Fin 64) :
    broadcastTo S1024x64 x broadcasts_S1x64_S1024x64 (ix2 p q) = x (ix2 0 q) :=
  broadcastTo_apply x broadcasts_S1x64_S1024x64 (ix2 p q) (ix2 0 q) (fun a => by
    match a with
    | ⟨0, _⟩ => rfl
    | ⟨1, _⟩ => rfl)

/-! ## The body's arithmetic at an index -/

/-- What the body stores at row `p`, centre `q` of its block, from the five blocks it loads:
    `exp ((0 - ∑ c, x0² · x1) + 2 · ∑ c, x0 · x2 - x3) · x4`, the literal words kept as words. -/
theorem payload_apply (x0 : Vec Ideal S1024x512 .f32) (x1 x2 : Vec Ideal S512x64 .f32) (x3 x4 : Vec Ideal S1x64 .f32)
    (p : Fin 1024) (q : Fin 64) :
    k0_pay1 (F := Ideal) x0 x1 x2 x3 x4 (ix2 p q)
      = Ideal.exp (((Cert.Rbf.zeroW - ∑ c : Fin 512, (x0 (ix2 p c) * x0 (ix2 p c)) * x1 (ix2 c q))
          + Cert.Rbf.twoW * ∑ c : Fin 512, x0 (ix2 p c) * x2 (ix2 c q)) - x3 (ix2 0 q)) * x4 (ix2 0 q) := by
  unfold k0_pay1
  simp only [shapeCast_self]
  show Ideal.exp (((Ideal.ofBits .f32 0x00000000#32
        - matmul (F := Ideal) dot_S1024x512_S512x64_S1024x64_1_0_0_1_n_n none (truncf (F := Ideal) .bf16 (mulf (F := Ideal) x0 x0) bitsLt_bf16_f32) (truncf (F := Ideal) .bf16 x1 bitsLt_bf16_f32) (constant (F := Ideal) S1024x64 .f32 0x00000000#32) (ix2 p q))
        + Ideal.ofBits .f32 0x40000000#32
          * matmul (F := Ideal) dot_S1024x512_S512x64_S1024x64_1_0_0_1_n_n none (truncf (F := Ideal) .bf16 x0 bitsLt_bf16_f32) (truncf (F := Ideal) .bf16 x2 bitsLt_bf16_f32) (constant (F := Ideal) S1024x64 .f32 0x00000000#32) (ix2 p q))
        - broadcastTo S1024x64 x3 broadcasts_S1x64_S1024x64 (ix2 p q))
      * broadcastTo S1024x64 x4 broadcasts_S1x64_S1024x64 (ix2 p q) = _
  rw [contraction_apply, contraction_apply, row_spread_apply, row_spread_apply]
  rfl

variable (V : (c : Dev nD) → (b : Ref sig .tc) → Buf (Elt Ideal) ((c : Thread nD τ).loc b))

/-! ## From blocks to the array

Point `t` of the grid of 8 works on rows `1024 t … 1024 t + 1023`: its feature block and its output block are block
`(t, 0)` of their arrays, and the two tables and the two rows are staged whole at every point. -/

theorem origin : (![0, 0] : Fin 2 → Nat) = fun _ => 0 := funext fun a => by fin_cases a <;> rfl

/-- The block indices, decided over the 8 points: the features move with the output along the rows; the tables and
    the rows stay at block (0, 0); the output's block index is the point's number. -/
theorem block_indices : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the feature block at point `t` is row `n` of the features, when `n` is the output block's row `p`. -/
theorem feat_block_apply (c : Dev nD) (t : Fin cfg0.N) (p : Fin 1024) (k : Fin 512) (n : Fin 8192)
    (hn : n.val = win0_5.index t (0 : Fin 2) * 1024 + 1 * p.val) :
    (iblk0 V c 0 t : Vec Ideal S1024x512 .f32) (ix2 p k) = (V c main_arg0 : S8192x512.Idx → EReal) (ix2 n k) := by
  obtain ⟨e0, e1, -⟩ := block_indices t
  unfold iblk0
  rw [View.read_apply]
  show (V c main_arg0 : S8192x512.Idx → EReal) _ = _
  refine congrArg (V c main_arg0 : S8192x512.Idx → EReal) (funext fun a => Fin.ext ?_)
  match a with
  | ⟨0, _⟩ => show win0_0.index t (0 : Fin 2) * 1024 + 1 * p.val = n.val; omega
  | ⟨1, _⟩ => show win0_0.index t (1 : Fin 2) * 512 + 1 * k.val = k.val; omega

/-- The first table's block at any point is the whole table. -/
theorem tab1_block_apply (c : Dev nD) (t : Fin cfg0.N) (k : Fin 512) (q : Fin 64) :
    (iblk0 V c 1 t : Vec Ideal S512x64 .f32) (ix2 k q) = (V c main_v7 : S512x64.Idx → EReal) (ix2 k q) := by
  obtain ⟨-, -, e0, e1, -⟩ := block_indices t
  unfold iblk0
  rw [View.read_apply]
  show (V c main_v7 : S512x64.Idx → EReal) _ = _
  refine congrArg (V c main_v7 : S512x64.Idx → EReal) (funext fun a => Fin.ext ?_)
  match a with
  | ⟨0, _⟩ => show win0_1.index t (0 : Fin 2) * 512 + 1 * k.val = k.val; omega
  | ⟨1, _⟩ => show win0_1.index t (1 : Fin 2) * 64 + 1 * q.val = q.val; omega

/-- The second table's block at any point is the whole table. -/
theorem tab2_block_apply (c : Dev nD) (t : Fin cfg0.N) (k : Fin 512) (q : Fin 64) :
    (iblk0 V c 2 t : Vec Ideal S512x64 .f32) (ix2 k q) = (V c main_v8 : S512x64.Idx → EReal) (ix2 k q) := by
  obtain ⟨-, -, -, -, e0, e1, -⟩ := block_indices t
  unfold iblk0
  rw [View.read_apply]
  show (V c main_v8 : S512x64.Idx → EReal) _ = _
  refine congrArg (V c main_v8 : S512x64.Idx → EReal) (funext fun a => Fin.ext ?_)
  match a with
  | ⟨0, _⟩ => show win0_2.index t (0 : Fin 2) * 512 + 1 * k.val = k.val; omega
  | ⟨1, _⟩ => show win0_2.index t (1 : Fin 2) * 64 + 1 * q.val = q.val; omega

/-- The offset row's block at any point is the whole row. -/
theorem row3_block_apply (c : Dev nD) (t : Fin cfg0.N) (q : Fin 64) :
    (iblk0 V c 3 t : Vec Ideal S1x64 .f32) (ix2 0 q) = (V c main_v9 : S1x64.Idx → EReal) (ix2 0 q) := by
  obtain ⟨-, -, -, -, -, -, e0, e1, -⟩ := block_indices t
  unfold iblk0
  rw [View.read_apply]
  show (V c main_v9 : S1x64.Idx → EReal) _ = _
  refine congrArg (V c main_v9 : S1x64.Idx → EReal) (funext fun a => Fin.ext ?_)
  match a with
  | ⟨0, _⟩ => show win0_3.index t (0 : Fin 2) * 1 + 1 * 0 = 0; omega
  | ⟨1, _⟩ => show win0_3.index t (1 : Fin 2) * 64 + 1 * q.val = q.val; omega

/-- The block of the row that multiplies the exponential is the whole row at any point. -/
theorem row4_block_apply (c : Dev nD) (t : Fin cfg0.N) (q : Fin 64) :
    (iblk0 V c 4 t : Vec Ideal S1x64 .f32) (ix2 0 q) = (V c main_v10 : S1x64.Idx → EReal) (ix2 0 q) := by
  obtain ⟨-, -, -, -, -, -, -, -, e0, e1, -⟩ := block_indices t
  unfold iblk0
  rw [View.read_apply]
  show (V c main_v10 : S1x64.Idx → EReal) _ = _
  refine congrArg (V c main_v10 : S1x64.Idx → EReal) (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

/-- The body's value at row `p`, centre `q` of a block is the expanded response at array index `i`, once the five
    loaded blocks read the arrays where `i` says: row `i 0` of the features, column `i 1` of the tables and rows. -/
theorem payload_eq_resp (f : Cert.Rbf.Feat.Idx → EReal) (a b : Cert.Rbf.TabT.Idx → EReal) (t3 w : Cert.Rbf.Row.Idx → EReal)
    (x0 : Vec Ideal S1024x512 .f32) (x1 x2 : Vec Ideal S512x64 .f32) (x3 x4 : Vec Ideal S1x64 .f32)
    (i : Cert.Rbf.Resp.Idx) (p : Fin 1024) (q : Fin 64)
    (h0 : ∀ k : Fin 512, x0 (ix2 p k) = f (ix2 (i 0) k))
    (h1 : ∀ k : Fin 512, x1 (ix2 k q) = a (ix2 k (i 1)))
    (h2 : ∀ k : Fin 512, x2 (ix2 k q) = b (ix2 k (i 1)))
    (h3 : x3 (ix2 0 q) = t3 (ix2 0 (i 1)))
    (h4 : x4 (ix2 0 q) = w (ix2 0 (i 1))) :
    k0_pay1 (F := Ideal) x0 x1 x2 x3 x4 (ix2 p q) = Cert.Rbf.respExpanded f a b t3 w i := by
  rw [payload_apply]
  unfold Cert.Rbf.respExpanded
  simp only [h0, h1, h2, h3, h4]

/-- What point `t` writes back is block `t` of the expanded response of the five arrays as the region finds them. -/
theorem flushed_eq (c : Dev nD) (t : Fin cfg0.N) :
    (dat0 (F := Ideal) V c).flushed 5 t
      = ((cfg0.win 5).blk t).view.read (Elt Ideal)
          (Cert.Rbf.respExpanded (V c main_arg0) (V c main_v7) (V c main_v8) (V c main_v9) (V c main_v10)) := by
  show (cfg0.win 5).cut (grid0.coords t) ((dat0 (F := Ideal) V c).after 5 t) = _
  rw [after0_5]
  unfold out0_5
  rw [View.canon_unit_zero origin]
  simp only [View.ld_unit_zero (S := S1024x512) origin, View.ld_unit_zero (S := S512x64) origin, View.ld_unit_zero (S := S1x64) origin]
  obtain ⟨-, -, -, -, -, -, -, -, -, -, -, e51⟩ := block_indices t
  funext j
  show k0_pay1 (F := Ideal) (iblk0 V c 0 t) (iblk0 V c 1 t) (iblk0 V c 2 t) (iblk0 V c 3 t) (iblk0 V c 4 t) j
    = Cert.Rbf.respExpanded (V c main_arg0) (V c main_v7) (V c main_v8) (V c main_v9) (V c main_v10) (((cfg0.win 5).blk t).view.emb j)
  have hi0 : ((((cfg0.win 5).blk t).view.emb j) 0).val = win0_5.index t (0 : Fin 2) * 1024 + 1 * (j 0).val := rfl
  have hi1 : ((((cfg0.win 5).blk t).view.emb j) 1).val = win0_5.index t (1 : Fin 2) * 64 + 1 * (j 1).val := rfl
  have hq : (((cfg0.win 5).blk t).view.emb j) 1 = j 1 := Fin.ext (by rw [hi1, e51]; omega)
  refine (congrArg (k0_pay1 (F := Ideal) (iblk0 V c 0 t) (iblk0 V c 1 t) (iblk0 V c 2 t) (iblk0 V c 3 t) (iblk0 V c 4 t)) (eq_ix2 j)).trans ?_
  refine payload_eq_resp (V c main_arg0) (V c main_v7) (V c main_v8) (V c main_v9) (V c main_v10)
    (iblk0 V c 0 t) (iblk0 V c 1 t) (iblk0 V c 2 t) (iblk0 V c 3 t) (iblk0 V c 4 t)
    (((cfg0.win 5).blk t).view.emb j) (j 0) (j 1) ?_ ?_ ?_ ?_ ?_
  · intro k; exact feat_block_apply V c t (j 0) k _ hi0
  · intro k; rw [hq]; exact tab1_block_apply V c t k (j 1)
  · intro k; rw [hq]; exact tab2_block_apply V c t k (j 1)
  · rw [hq]; exact row3_block_apply V c t (j 1)
  · rw [hq]; exact row4_block_apply V c t (j 1)

/-- An index of the [8192, 64] array is in point `t`'s block iff each coordinate is in the block's range on its axis. -/
theorem mem_blk (t : Fin cfg0.N) (i : S8192x64.Idx) :
    i ∈ ((cfg0.win 5).blk t).view.set ↔ ∀ a : Fin 2, win0_5.index t a * S1024x64.size a ≤ (i a).val ∧ (i a).val < win0_5.index t a * S1024x64.size a + S1024x64.size a := by
  show i ∈ ((View.whole main_v12).slice (win0_5.rect t)).set ↔ _
  rw [View.set_slice_whole, Rect.mem_set_unit]
  exact Iff.rfl

/-- Every index of the array is in the block of the point that owns its row: row `r` belongs to point `r / 1024`. -/
theorem cover (i : S8192x64.Idx) :
    ∃ t : Fin cfg0.N, (cfg0.win 5).flush t = true ∧ i ∈ ((cfg0.win 5).blk t).view.set := by
  have hi0 : (i 0).val < 8192 := (i 0).isLt
  have hi1 : (i 1).val < 64 := (i 1).isLt
  have hN : grid0.N = 8 := N_0
  have hlt : (i 0).val / 1024 < cfg0.N := by show (i 0).val / 1024 < grid0.N; rw [hN]; omega
  obtain ⟨-, -, -, -, -, -, -, -, -, -, e50, e51⟩ := block_indices ⟨(i 0).val / 1024, hlt⟩
  have e50' : win0_5.index ⟨(i 0).val / 1024, hlt⟩ (0 : Fin 2) = (i 0).val / 1024 := e50
  refine ⟨⟨(i 0).val / 1024, hlt⟩, flush0_5 _, ?_⟩
  rw [mem_blk]
  intro a
  match a with
  | ⟨0, _⟩ =>
    show win0_5.index ⟨(i 0).val / 1024, hlt⟩ (0 : Fin 2) * 1024 ≤ (i 0).val ∧ (i 0).val < win0_5.index ⟨(i 0).val / 1024, hlt⟩ (0 : Fin 2) * 1024 + 1024
    omega
  | ⟨1, _⟩ =>
    show win0_5.index ⟨(i 0).val / 1024, hlt⟩ (1 : Fin 2) * 64 ≤ (i 1).val ∧ (i 1).val < win0_5.index ⟨(i 0).val / 1024, hlt⟩ (1 : Fin 2) * 64 + 64
    omega

/-- The output array after the region: the expanded response of the five staged arrays, at every index. -/
theorem value (c : Dev nD) :
    (dat0 (F := Ideal) V c).arrAt 5 cfg0.N
      = Cert.Rbf.respExpanded (V c main_arg0) (V c main_v7) (V c main_v8) (V c main_v9) (V c main_v10) :=
  (dat0 (F := Ideal) V c).arrAt_eq_of_cover 5 _ (fun t _ => flushed_eq V c t) cover

end Cert.KernelIdeal.Region0

end
-- ==== Proof.Region1Value.lean ====
import proofs.«173100_j65223373357286_1_alg».proof.Proof.Gen.KernelIdeal.Frame
import proofs.«173100_j65223373357286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-! ## The contraction of a [1024, 512] block against a [512, 64] table, at an index

The dot's dimension numbers contract the left operand's axis 1 with the right operand's axis 0; the left operand's
axis 0 and the right operand's axis 1 are the result's two axes. -/

/-- The left operand's row is the result's row. -/
theorem lhs_axis0 (i : S1024x64.Idx) (q : dot_S1024x512_S512x64_S1024x64_1_0_0_1_n_n.contr.Idx) :
    (dot_S1024x512_S512x64_S1024x64_1_0_0_1_n_n.lhsIdx i q 0).val = (i 0).val := by
  unfold DotDims.lhsIdx
  rw [dif_neg (show ¬(0 : Fin S1024x512.rank) ∈ dot_S1024x512_S512x64_S1024x64_1_0_0_1_n_n.lhsBatch by decide), dif_pos (show (0 : Fin S1024x512.rank) ∈ dot_S1024x512_S512x64_S1024x64_1_0_0_1_n_n.lhsNonContracting by decide)]
  rfl
/-- The left operand's column is the contraction index. -/
theorem lhs_axis1 (i : S1024x64.Idx) (q : dot_S1024x512_S512x64_S1024x64_1_0_0_1_n_n.contr.Idx) :
    (dot_S1024x512_S512x64_S1024x64_1_0_0_1_n_n.lhsIdx i q 1).val = (q ⟨0, by decide⟩).val :=
  dot_S1024x512_S512x64_S1024x64_1_0_0_1_n_n.lhsIdx_val_of_single rfl i q
/-- The right operand's row is the contraction index. -/
theorem rhs_axis0 (i : S1024x64.Idx) (q : dot_S1024x512_S512x64_S1024x64_1_0_0_1_n_n.contr.Idx) :
    (dot_S1024x512_S512x64_S1024x64_1_0_0_1_n_n.rhsIdx i q 0).val = (q ⟨0, by decide⟩).val :=
  dot_S1024x512_S512x64_S1024x64_1_0_0_1_n_n.rhsIdx_val_of_single rfl i q
/-- The right operand's column is the result's column. -/
theorem rhs_axis1 (i : S1024x64.Idx) (q : dot_S1024x512_S512x64_S1024x64_1_0_0_1_n_n.contr.Idx) :
    (dot_S1024x512_S512x64_S1024x64_1_0_0_1_n_n.rhsIdx i q 1).val = (i 1).val := by
  unfold DotDims.rhsIdx
  rw [dif_neg (show ¬(1 : Fin S512x64.rank) ∈ dot_S1024x512_S512x64_S1024x64_1_0_0_1_n_n.rhsBatch by decide), dif_pos (show (1 : Fin S512x64.rank) ∈ dot_S1024x512_S512x64_S1024x64_1_0_0_1_n_n.rhsNonContracting by decide)]
  rfl

/-- The matrix product into a zero accumulator at row `p` and column `q`: the sum over the 512 channels of the
    left operand's row `p` times the right operand's column `q`. -/
theorem contraction_apply (l : FVec Ideal S1024x512 .bf16) (r : FVec Ideal S512x64 .bf16) (p : Fin 1024) (q : Fin 64) :
    matmul dot_S1024x512_S512x64_S1024x64_1_0_0_1_n_n none l r (constant S1024x64 .f32 0x00000000#32) (ix2 p q)
      = ∑ c : Fin 512, l (ix2 p c) * r (ix2 c q) := by
  simp only [matmul]
  rw [Ideal.matmul_constant_zero_apply, ← Equiv.sum_comp (ValueIdx.contrEquiv1 dot_S1024x512_S512x64_S1024x64_1_0_0_1_n_n 512 rfl rfl).symm]
  refine Finset.sum_congr rfl fun k _ => ?_
  have hk := ValueIdx.contrEquiv1_symm_val dot_S1024x512_S512x64_S1024x64_1_0_0_1_n_n 512 rfl rfl k
  have el : dot_S1024x512_S512x64_S1024x64_1_0_0_1_n_n.lhsIdx (ix2 p q) ((ValueIdx.contrEquiv1 dot_S1024x512_S512x64_S1024x64_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S1024x512_S512x64_S1024x64_1_0_0_1_n_n.rhsIdx (ix2 p q) ((ValueIdx.contrEquiv1 dot_S1024x512_S512x64_S1024x64_1_0_0_1_n_n 512 rfl rfl).symm k) = ix2 k q := funext fun a => Fin.ext (by
    match a with
    | ⟨0, _⟩ => exact (rhs_axis0 _ _).trans hk
    | ⟨1, _⟩ => exact rhs_axis1 _ _)
  rw [el, er]

/-- A [1, 64] row spread over the 1024 rows reads, at row `p` and column `q`, the row's entry `q`. -/
theorem row_spread_apply (x : Vec Ideal S1x64 .f32) (p : Fin 1024) (q : Fin 64) :
    broadcastTo S1024x64 x broadcasts_S1x64_S1024x64 (ix2 p q) = x (ix2 0 q) :=
  broadcastTo_apply x broadcasts_S1x64_S1024x64 (ix2 p q) (ix2 0 q) (fun a => by
    match a with
    | ⟨0, _⟩ => rfl
    | ⟨1, _⟩ => rfl)

/-! ## The body's arithmetic at an index -/

/-- What the body stores at row `p`, centre `q` of its block, from the five blocks it loads:
    `exp ((0 - ∑ c, x0² · x1) + 2 · ∑ c, x0 · x2 - x3) · x4`, the literal words kept as words. -/
theorem payload_apply (x0 : Vec Ideal S1024x512 .f32) (x1 x2 : Vec Ideal S512x64 .f32) (x3 x4 : Vec Ideal S1x64 .f32)
    (p : Fin 1024) (q : Fin 64) :
    k1_pay1 (F := Ideal) x0 x1 x2 x3 x4 (ix2 p q)
      = Ideal.exp (((Cert.Rbf.zeroW - ∑ c : Fin 512, (x0 (ix2 p c) * x0 (ix2 p c)) * x1 (ix2 c q))
          + Cert.Rbf.twoW * ∑ c : Fin 512, x0 (ix2 p c) * x2 (ix2 c q)) - x3 (ix2 0 q)) * x4 (ix2 0 q) := by
  unfold k1_pay1
  simp only [shapeCast_self]
  show Ideal.exp (((Ideal.ofBits .f32 0x00000000#32
        - matmul (F := Ideal) dot_S1024x512_S512x64_S1024x64_1_0_0_1_n_n none (truncf (F := Ideal) .bf16 (mulf (F := Ideal) x0 x0) bitsLt_bf16_f32) (truncf (F := Ideal) .bf16 x1 bitsLt_bf16_f32) (constant (F := Ideal) S1024x64 .f32 0x00000000#32) (ix2 p q))
        + Ideal.ofBits .f32 0x40000000#32
          * matmul (F := Ideal) dot_S1024x512_S512x64_S1024x64_1_0_0_1_n_n none (truncf (F := Ideal) .bf16 x0 bitsLt_bf16_f32) (truncf (F := Ideal) .bf16 x2 bitsLt_bf16_f32) (constant (F := Ideal) S1024x64 .f32 0x00000000#32) (ix2 p q))
        - broadcastTo S1024x64 x3 broadcasts_S1x64_S1024x64 (ix2 p q))
      * broadcastTo S1024x64 x4 broadcasts_S1x64_S1024x64 (ix2 p q) = _
  rw [contraction_apply, contraction_apply, row_spread_apply, row_spread_apply]
  rfl

variable (V : (c : Dev nD) → (b : Ref sig .tc) → Buf (Elt Ideal) ((c : Thread nD τ).loc b))

/-! ## From blocks to the array

Point `t` of the grid of 8 works on rows `1024 t … 1024 t + 1023`: its feature block and its output block are block
`(t, 0)` of their arrays, and the two tables and the two rows are staged whole at every point. -/

theorem origin : (![0, 0] : Fin 2 → Nat) = fun _ => 0 := funext fun a => by fin_cases a <;> rfl

/-- The block indices, decided over the 8 points: the features move with the output along the rows; the tables and
    the rows stay at block (0, 0); the output's block index is the point's number. -/
theorem block_indices : ∀ t : Fin cfg1.N,
    win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the feature block at point `t` is row `n` of the features, when `n` is the output block's row `p`. -/
theorem feat_block_apply (c : Dev nD) (t : Fin cfg1.N) (p : Fin 1024) (k : Fin 512) (n : Fin 8192)
    (hn : n.val = win1_5.index t (0 : Fin 2) * 1024 + 1 * p.val) :
    (iblk1 V c 0 t : Vec Ideal S1024x512 .f32) (ix2 p k) = (V c main_arg1 : S8192x512.Idx → EReal) (ix2 n k) := by
  obtain ⟨e0, e1, -⟩ := block_indices t
  unfold iblk1
  rw [View.read_apply]
  show (V c main_arg1 : S8192x512.Idx → EReal) _ = _
  refine congrArg (V c main_arg1 : S8192x512.Idx → EReal) (funext fun a => Fin.ext ?_)
  match a with
  | ⟨0, _⟩ => show win1_0.index t (0 : Fin 2) * 1024 + 1 * p.val = n.val; omega
  | ⟨1, _⟩ => show win1_0.index t (1 : Fin 2) * 512 + 1 * k.val = k.val; omega

/-- The first table's block at any point is the whole table. -/
theorem tab1_block_apply (c : Dev nD) (t : Fin cfg1.N) (k : Fin 512) (q : Fin 64) :
    (iblk1 V c 1 t : Vec Ideal S512x64 .f32) (ix2 k q) = (V c main_v7 : S512x64.Idx → EReal) (ix2 k q) := by
  obtain ⟨-, -, e0, e1, -⟩ := block_indices t
  unfold iblk1
  rw [View.read_apply]
  show (V c main_v7 : S512x64.Idx → EReal) _ = _
  refine congrArg (V c main_v7 : S512x64.Idx → EReal) (funext fun a => Fin.ext ?_)
  match a with
  | ⟨0, _⟩ => show win1_1.index t (0 : Fin 2) * 512 + 1 * k.val = k.val; omega
  | ⟨1, _⟩ => show win1_1.index t (1 : Fin 2) * 64 + 1 * q.val = q.val; omega

/-- The second table's block at any point is the whole table. -/
theorem tab2_block_apply (c : Dev nD) (t : Fin cfg1.N) (k : Fin 512) (q : Fin 64) :
    (iblk1 V c 2 t : Vec Ideal S512x64 .f32) (ix2 k q) = (V c main_v8 : S512x64.Idx → EReal) (ix2 k q) := by
  obtain ⟨-, -, -, -, e0, e1, -⟩ := block_indices t
  unfold iblk1
  rw [View.read_apply]
  show (V c main_v8 : S512x64.Idx → EReal) _ = _
  refine congrArg (V c main_v8 : S512x64.Idx → EReal) (funext fun a => Fin.ext ?_)
  match a with
  | ⟨0, _⟩ => show win1_2.index t (0 : Fin 2) * 512 + 1 * k.val = k.val; omega
  | ⟨1, _⟩ => show win1_2.index t (1 : Fin 2) * 64 + 1 * q.val = q.val; omega

/-- The offset row's block at any point is the whole row. -/
theorem row3_block_apply (c : Dev nD) (t : Fin cfg1.N) (q : Fin 64) :
    (iblk1 V c 3 t : Vec Ideal S1x64 .f32) (ix2 0 q) = (V c main_v9 : S1x64.Idx → EReal) (ix2 0 q) := by
  obtain ⟨-, -, -, -, -, -, e0, e1, -⟩ := block_indices t
  unfold iblk1
  rw [View.read_apply]
  show (V c main_v9 : S1x64.Idx → EReal) _ = _
  refine congrArg (V c main_v9 : S1x64.Idx → EReal) (funext fun a => Fin.ext ?_)
  match a with
  | ⟨0, _⟩ => show win1_3.index t (0 : Fin 2) * 1 + 1 * 0 = 0; omega
  | ⟨1, _⟩ => show win1_3.index t (1 : Fin 2) * 64 + 1 * q.val = q.val; omega

/-- The block of the row that multiplies the exponential is the whole row at any point. -/
theorem row4_block_apply (c : Dev nD) (t : Fin cfg1.N) (q : Fin 64) :
    (iblk1 V c 4 t : Vec Ideal S1x64 .f32) (ix2 0 q) = (V c main_v11 : S1x64.Idx → EReal) (ix2 0 q) := by
  obtain ⟨-, -, -, -, -, -, -, -, e0, e1, -⟩ := block_indices t
  unfold iblk1
  rw [View.read_apply]
  show (V c main_v11 : S1x64.Idx → EReal) _ = _
  refine congrArg (V c main_v11 : S1x64.Idx → EReal) (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- The body's value at row `p`, centre `q` of a block is the expanded response at array index `i`, once the five
    loaded blocks read the arrays where `i` says: row `i 0` of the features, column `i 1` of the tables and rows. -/
theorem payload_eq_resp (f : Cert.Rbf.Feat.Idx → EReal) (a b : Cert.Rbf.TabT.Idx → EReal) (t3 w : Cert.Rbf.Row.Idx → EReal)
    (x0 : Vec Ideal S1024x512 .f32) (x1 x2 : Vec Ideal S512x64 .f32) (x3 x4 : Vec Ideal S1x64 .f32)
    (i : Cert.Rbf.Resp.Idx) (p : Fin 1024) (q : Fin 64)
    (h0 : ∀ k : Fin 512, x0 (ix2 p k) = f (ix2 (i 0) k))
    (h1 : ∀ k : Fin 512, x1 (ix2 k q) = a (ix2 k (i 1)))
    (h2 : ∀ k : Fin 512, x2 (ix2 k q) = b (ix2 k (i 1)))
    (h3 : x3 (ix2 0 q) = t3 (ix2 0 (i 1)))
    (h4 : x4 (ix2 0 q) = w (ix2 0 (i 1))) :
    k1_pay1 (F := Ideal) x0 x1 x2 x3 x4 (ix2 p q) = Cert.Rbf.respExpanded f a b t3 w i := by
  rw [payload_apply]
  unfold Cert.Rbf.respExpanded
  simp only [h0, h1, h2, h3, h4]

/-- What point `t` writes back is block `t` of the expanded response of the five arrays as the region finds them. -/
theorem flushed_eq (c : Dev nD) (t : Fin cfg1.N) :
    (dat1 (F := Ideal) V c).flushed 5 t
      = ((cfg1.win 5).blk t).view.read (Elt Ideal)
          (Cert.Rbf.respExpanded (V c main_arg1) (V c main_v7) (V c main_v8) (V c main_v9) (V c main_v11)) := by
  show (cfg1.win 5).cut (grid1.coords t) ((dat1 (F := Ideal) V c).after 5 t) = _
  rw [after1_5]
  unfold out1_5
  rw [View.canon_unit_zero origin]
  simp only [View.ld_unit_zero (S := S1024x512) origin, View.ld_unit_zero (S := S512x64) origin, View.ld_unit_zero (S := S1x64) origin]
  obtain ⟨-, -, -, -, -, -, -, -, -, -, -, e51⟩ := block_indices t
  funext j
  show k1_pay1 (F := Ideal) (iblk1 V c 0 t) (iblk1 V c 1 t) (iblk1 V c 2 t) (iblk1 V c 3 t) (iblk1 V c 4 t) j
    = Cert.Rbf.respExpanded (V c main_arg1) (V c main_v7) (V c main_v8) (V c main_v9) (V c main_v11) (((cfg1.win 5).blk t).view.emb j)
  have hi0 : ((((cfg1.win 5).blk t).view.emb j) 0).val = win1_5.index t (0 : Fin 2) * 1024 + 1 * (j 0).val := rfl
  have hi1 : ((((cfg1.win 5).blk t).view.emb j) 1).val = win1_5.index t (1 : Fin 2) * 64 + 1 * (j 1).val := rfl
  have hq : (((cfg1.win 5).blk t).view.emb j) 1 = j 1 := Fin.ext (by rw [hi1, e51]; omega)
  refine (congrArg (k1_pay1 (F := Ideal) (iblk1 V c 0 t) (iblk1 V c 1 t) (iblk1 V c 2 t) (iblk1 V c 3 t) (iblk1 V c 4 t)) (eq_ix2 j)).trans ?_
  refine payload_eq_resp (V c main_arg1) (V c main_v7) (V c main_v8) (V c main_v9) (V c main_v11)
    (iblk1 V c 0 t) (iblk1 V c 1 t) (iblk1 V c 2 t) (iblk1 V c 3 t) (iblk1 V c 4 t)
    (((cfg1.win 5).blk t).view.emb j) (j 0) (j 1) ?_ ?_ ?_ ?_ ?_
  · intro k; exact feat_block_apply V c t (j 0) k _ hi0
  · intro k; rw [hq]; exact tab1_block_apply V c t k (j 1)
  · intro k; rw [hq]; exact tab2_block_apply V c t k (j 1)
  · rw [hq]; exact row3_block_apply V c t (j 1)
  · rw [hq]; exact row4_block_apply V c t (j 1)

/-- An index of the [8192, 64] array is in point `t`'s block iff each coordinate is in the block's range on its axis. -/
theorem mem_blk (t : Fin cfg1.N) (i : S8192x64.Idx) :
    i ∈ ((cfg1.win 5).blk t).view.set ↔ ∀ a : Fin 2, win1_5.index t a * S1024x64.size a ≤ (i a).val ∧ (i a).val < win1_5.index t a * S1024x64.size a + S1024x64.size a := by
  show i ∈ ((View.whole main_v13).slice (win1_5.rect t)).set ↔ _
  rw [View.set_slice_whole, Rect.mem_set_unit]
  exact Iff.rfl

/-- Every index of the array is in the block of the point that owns its row: row `r` belongs to point `r / 1024`. -/
theorem cover (i : S8192x64.Idx) :
    ∃ t : Fin cfg1.N, (cfg1.win 5).flush t = true ∧ i ∈ ((cfg1.win 5).blk t).view.set := by
  have hi0 : (i 0).val < 8192 := (i 0).isLt
  have hi1 : (i 1).val < 64 := (i 1).isLt
  have hN : grid1.N = 8 := N_1
  have hlt : (i 0).val / 1024 < cfg1.N := by show (i 0).val / 1024 < grid1.N; rw [hN]; omega
  obtain ⟨-, -, -, -, -, -, -, -, -, -, e50, e51⟩ := block_indices ⟨(i 0).val / 1024, hlt⟩
  have e50' : win1_5.index ⟨(i 0).val / 1024, hlt⟩ (0 : Fin 2) = (i 0).val / 1024 := e50
  refine ⟨⟨(i 0).val / 1024, hlt⟩, flush1_5 _, ?_⟩
  rw [mem_blk]
  intro a
  match a with
  | ⟨0, _⟩ =>
    show win1_5.index ⟨(i 0).val / 1024, hlt⟩ (0 : Fin 2) * 1024 ≤ (i 0).val ∧ (i 0).val < win1_5.index ⟨(i 0).val / 1024, hlt⟩ (0 : Fin 2) * 1024 + 1024
    omega
  | ⟨1, _⟩ =>
    show win1_5.index ⟨(i 0).val / 1024, hlt⟩ (1 : Fin 2) * 64 ≤ (i 1).val ∧ (i 1).val < win1_5.index ⟨(i 0).val / 1024, hlt⟩ (1 : Fin 2) * 64 + 64
    omega

/-- The output array after the region: the expanded response of the five staged arrays, at every index. -/
theorem value (c : Dev nD) :
    (dat1 (F := Ideal) V c).arrAt 5 cfg1.N
      = Cert.Rbf.respExpanded (V c main_arg1) (V c main_v7) (V c main_v8) (V c main_v9) (V c main_v11) :=
  (dat1 (F := Ideal) V c).arrAt_eq_of_cover 5 _ (fun t _ => flushed_eq V c t) cover

end Cert.KernelIdeal.Region1

end
-- ==== Proof.Region2Value.lean ====
import proofs.«173100_j65223373357286_1_alg».proof.Proof.Gen.KernelIdeal.Frame
import proofs.«173100_j65223373357286_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx

/-! ## The product of two row blocks, entry by entry

The body multiplies a block of 2048 rows of the left factor by a block of 1024 rows of the right factor, contracting the
64 columns of BOTH (the right factor is used transposed), into a zero accumulator. -/

/-- The left factor's row is the result's row. -/
theorem lhs_row (i : S2048x1024.Idx) (q : dot_S2048x64_S1024x64_S2048x1024_1_1_0_0_n_n.contr.Idx) :
    (dot_S2048x64_S1024x64_S2048x1024_1_1_0_0_n_n.lhsIdx i q 0).val = (i 0).val := by
  unfold DotDims.lhsIdx
  rw [dif_neg (show ¬(0 : Fin S2048x64.rank) ∈ dot_S2048x64_S1024x64_S2048x1024_1_1_0_0_n_n.lhsBatch by decide), dif_pos (show (0 : Fin S2048x64.rank) ∈ dot_S2048x64_S1024x64_S2048x1024_1_1_0_0_n_n.lhsNonContracting by decide)]
  rfl

/-- The left factor's column is the summation position. -/
theorem lhs_col (i : S2048x1024.Idx) (q : dot_S2048x64_S1024x64_S2048x1024_1_1_0_0_n_n.contr.Idx) :
    (dot_S2048x64_S1024x64_S2048x1024_1_1_0_0_n_n.lhsIdx i q 1).val = (q ⟨0, by decide⟩).val :=
  dot_S2048x64_S1024x64_S2048x1024_1_1_0_0_n_n.lhsIdx_val_of_single rfl i q

/-- The right factor's row is the result's COLUMN. -/
theorem rhs_row (i : S2048x1024.Idx) (q : dot_S2048x64_S1024x64_S2048x1024_1_1_0_0_n_n.contr.Idx) :
    (dot_S2048x64_S1024x64_S2048x1024_1_1_0_0_n_n.rhsIdx i q 0).val = (i 1).val := by
  unfold DotDims.rhsIdx
  rw [dif_neg (show ¬(0 : Fin S1024x64.rank) ∈ dot_S2048x64_S1024x64_S2048x1024_1_1_0_0_n_n.rhsBatch by decide), dif_pos (show (0 : Fin S1024x64.rank) ∈ dot_S2048x64_S1024x64_S2048x1024_1_1_0_0_n_n.rhsNonContracting by decide)]
  rfl

/-- The right factor's column is the summation position. -/
theorem rhs_col (i : S2048x1024.Idx) (q : dot_S2048x64_S1024x64_S2048x1024_1_1_0_0_n_n.contr.Idx) :
    (dot_S2048x64_S1024x64_S2048x1024_1_1_0_0_n_n.rhsIdx i q 1).val = (q ⟨0, by decide⟩).val :=
  dot_S2048x64_S1024x64_S2048x1024_1_1_0_0_n_n.rhsIdx_val_of_single rfl i q

/-- Entry (p, q) of the body's product: row p of the left block against row q of the right block. The narrowing of
    the factors is the identity on the extended reals, and the accumulator is zero, so no leading term. -/
theorem product_apply (x0 : Vec Ideal S2048x64 .f32) (x1 : Vec Ideal S1024x64 .f32) (p : Fin 2048) (q : Fin 1024) :
    k2_pay1 (F := Ideal) x0 x1 (ix2 p q) = ∑ k : Fin 64, x0 (ix2 p k) * x1 (ix2 q k) := by
  unfold k2_pay1
  refine (Ideal.matmul_constant_zero_apply dot_S2048x64_S1024x64_S2048x1024_1_1_0_0_n_n none _ _ (ix2 p q)).trans ?_
  rw [← Equiv.sum_comp (ValueIdx.contrEquiv1 dot_S2048x64_S1024x64_S2048x1024_1_1_0_0_n_n 64 rfl rfl).symm]
  refine Finset.sum_congr rfl fun k _ => ?_
  have hk := ValueIdx.contrEquiv1_symm_val dot_S2048x64_S1024x64_S2048x1024_1_1_0_0_n_n 64 rfl rfl k
  have el : dot_S2048x64_S1024x64_S2048x1024_1_1_0_0_n_n.lhsIdx (ix2 p q) ((ValueIdx.contrEquiv1 dot_S2048x64_S1024x64_S2048x1024_1_1_0_0_n_n 64 rfl rfl).symm k) = ix2 p k := funext fun a => Fin.ext (by
    match a with
    | ⟨0, _⟩ => exact lhs_row _ _
    | ⟨1, _⟩ => exact (lhs_col _ _).trans hk)
  have er : dot_S2048x64_S1024x64_S2048x1024_1_1_0_0_n_n.rhsIdx (ix2 p q) ((ValueIdx.contrEquiv1 dot_S2048x64_S1024x64_S2048x1024_1_1_0_0_n_n 64 rfl rfl).symm k) = ix2 q k := funext fun a => Fin.ext (by
    match a with
    | ⟨0, _⟩ => exact rhs_row _ _
    | ⟨1, _⟩ => exact (rhs_col _ _).trans hk)
  rw [el, er, ValueIdx.truncf_apply, ValueIdx.truncf_apply, shapeCast_self, shapeCast_self]

/-! ## From blocks to the array

The grid is 4 by 8. Point (i, j) reads rows 2048 i … 2048 i + 2047 of the left array, rows 1024 j … 1024 j + 1023 of the
right array, and writes the rectangle of the result with those rows and columns. -/

theorem hz : (![0, 0] : Fin 2 → Nat) = fun _ => 0 := funext fun a => by fin_cases a <;> rfl

/-- The index maps over the grid: the left window moves with the result's block row, the right window with the
    result's block column, neither moves along the 64 columns, and the result's block indices stay below 4 and 8. -/
theorem idx_facts : ∀ t : Fin cfg2.N, win2_0.index t (0 : Fin 2) = win2_2.index t (0 : Fin 2)
    ∧ win2_0.index t (1 : Fin 2) = 0
    ∧ win2_1.index t (0 : Fin 2) = win2_2.index t (1 : Fin 2)
    ∧ win2_1.index t (1 : Fin 2) = 0
    ∧ win2_2.index t (0 : Fin 2) ≤ 3
    ∧ win2_2.index t (1 : Fin 2) ≤ 7 :=
  (by decide +kernel : ∀ t : Fin grid2.N, _)

/-- Every one of the 4 × 8 result blocks is some point's. -/
theorem idx_onto : ∀ (q0 : Fin 4) (q1 : Fin 8), ∃ t : Fin cfg2.N, win2_2.index t = ![q0.val, q1.val] :=
  (by decide +kernel : ∀ (q0 : Fin 4) (q1 : Fin 8), ∃ t : Fin grid2.N, win2_2.index t = ![q0.val, q1.val])

variable (V : (c : Dev nD) → (b : Ref sig .tc) → Buf (Elt Ideal) ((c : Thread nD τ).loc b))

/-- The left array, 8192 rows of 64, as the region finds it. -/
abbrev leftArr (c : Dev nD) : Cert.Rbf.Resp.Idx → EReal := V c main_v12
/-- The right array, 8192 rows of 64, as the region finds it. -/
abbrev rightArr (c : Dev nD) : Cert.Rbf.Resp.Idx → EReal := V c main_v13

/-- The left window's block at point `t`: its row `p` is row `n` of the left array, where `n` is `p` past the
    first row of the result's block row. -/
theorem left_block_apply (c : Dev nD) (t : Fin cfg2.N) (p : Fin 2048) (k : Fin 64) (n : Fin 8192)
    (hn : n.val = win2_2.index t (0 : Fin 2) * 2048 + p.val) :
    (iblk2 V c 0 t : Vec Ideal S2048x64 .f32) (ix2 p k) = leftArr V c (ix2 n k) := by
  obtain ⟨e0, e1, e2, e3, e4, e5⟩ := idx_facts t
  unfold iblk2
  rw [View.read_apply]
  show V c main_v12 _ = V c main_v12 _
  congr 1
  funext a
  apply Fin.ext
  match a with
  | ⟨0, _⟩ => show win2_0.index t (0 : Fin 2) * 2048 + 1 * p.val = n.val; rw [hn, e0]; omega
  | ⟨1, _⟩ => show win2_0.index t (1 : Fin 2) * 64 + 1 * k.val = k.val; rw [e1]; omega

/-- The right window's block at point `t`: its row `q` is row `n` of the right array, where `n` is `q` past the
    first column of the result's block column. -/
theorem right_block_apply (c : Dev nD) (t : Fin cfg2.N) (q : Fin 1024) (k : Fin 64) (n : Fin 8192)
    (hn : n.val = win2_2.index t (1 : Fin 2) * 1024 + q.val) :
    (iblk2 V c 1 t : Vec Ideal S1024x64 .f32) (ix2 q k) = rightArr V c (ix2 n k) := by
  obtain ⟨e0, e1, e2, e3, e4, e5⟩ := idx_facts t
  unfold iblk2
  rw [View.read_apply]
  show V c main_v13 _ = V c main_v13 _
  congr 1
  funext a
  apply Fin.ext
  match a with
  | ⟨0, _⟩ => show win2_1.index t (0 : Fin 2) * 1024 + 1 * q.val = n.val; rw [hn, e2]; omega
  | ⟨1, _⟩ => show win2_1.index t (1 : Fin 2) * 64 + 1 * k.val = k.val; rw [e3]; omega

/-- What point `t` writes back is its rectangle of the product of the two arrays. -/
theorem flushed_eq (c : Dev nD) (t : Fin cfg2.N) :
    (dat2 (F := Ideal) V c).flushed 2 t
      = ((cfg2.win 2).blk t).view.read (Elt Ideal) (Cert.Rbf.gram (V c main_v12) (V c main_v13)) := by
  show (cfg2.win 2).cut (grid2.coords t) ((dat2 V c).after 2 t) = _
  rw [after2_2]
  unfold out2_2
  rw [View.canon_unit_zero hz]
  simp only [View.ld_unit_zero (S := S2048x64) hz, View.ld_unit_zero (S := S1024x64) hz]
  funext j
  obtain ⟨p, q, rfl⟩ : ∃ (p : Fin 2048) (q : Fin 1024), j = ix2 p q := ⟨j 0, j 1, eq_ix2 j⟩
  obtain ⟨e0, e1, e2, e3, e4, e5⟩ := idx_facts t
  have hp : p.val < 2048 := p.isLt
  have hq : q.val < 1024 := q.isLt
  have hn : win2_2.index t (0 : Fin 2) * 2048 + p.val < 8192 := by omega
  have hm : win2_2.index t (1 : Fin 2) * 1024 + q.val < 8192 := by omega
  have hemb : ((cfg2.win 2).blk t).view.emb (ix2 p q)
      = (ix2 (⟨win2_2.index t (0 : Fin 2) * 2048 + p.val, hn⟩ : Fin 8192)
          (⟨win2_2.index t (1 : Fin 2) * 1024 + q.val, hm⟩ : Fin 8192) : S8192x8192.Idx) :=
    funext fun a => Fin.ext (by
      match a with
      | ⟨0, _⟩ => show win2_2.index t (0 : Fin 2) * 2048 + 1 * p.val = win2_2.index t (0 : Fin 2) * 2048 + p.val; omega
      | ⟨1, _⟩ => show win2_2.index t (1 : Fin 2) * 1024 + 1 * q.val = win2_2.index t (1 : Fin 2) * 1024 + q.val; omega)
  show k2_pay1 (F := Ideal) (iblk2 V c 0 t) (iblk2 V c 1 t) (ix2 p q)
    = Cert.Rbf.gram (leftArr V c) (rightArr V c) (((cfg2.win 2).blk t).view.emb (ix2 p q))
  rw [hemb]
  refine (product_apply (iblk2 V c 0 t) (iblk2 V c 1 t) p q).trans ?_
  show _ = ∑ k : Fin 64, leftArr V c (ix2 (⟨win2_2.index t (0 : Fin 2) * 2048 + p.val, hn⟩ : Fin 8192) k)
      * rightArr V c (ix2 (⟨win2_2.index t (1 : Fin 2) * 1024 + q.val, hm⟩ : Fin 8192) k)
  refine Finset.sum_congr rfl fun k _ => ?_
  rw [left_block_apply V c t p k ⟨win2_2.index t (0 : Fin 2) * 2048 + p.val, hn⟩ rfl,
    right_block_apply V c t q k ⟨win2_2.index t (1 : Fin 2) * 1024 + q.val, hm⟩ rfl]

/-- An index of the result is in point `t`'s rectangle iff each coordinate is in the rectangle's range on its axis. -/
theorem mem_blk (t : Fin cfg2.N) (i : S8192x8192.Idx) :
    i ∈ ((cfg2.win 2).blk t).view.set ↔ ∀ a : Fin 2, win2_2.index t a * S2048x1024.size a ≤ (i a).val
      ∧ (i a).val < win2_2.index t a * S2048x1024.size a + S2048x1024.size a := by
  show i ∈ ((View.whole main_v14).slice (win2_2.rect t)).set ↔ _
  rw [View.set_slice_whole, Rect.mem_set_unit]
  exact Iff.rfl

/-- The 32 rectangles cover the result: entry (n, m) lies in the rectangle of block row n / 2048, block column m / 1024. -/
theorem cover (i : S8192x8192.Idx) :
    ∃ t : Fin cfg2.N, (cfg2.win 2).flush t = true ∧ i ∈ ((cfg2.win 2).blk t).view.set := by
  have hi0 : (i 0).val < 8192 := (i 0).isLt
  have hi1 : (i 1).val < 8192 := (i 1).isLt
  obtain ⟨t, ht⟩ := idx_onto ⟨(i 0).val / 2048, by omega⟩ ⟨(i 1).val / 1024, by omega⟩
  have q0 : win2_2.index t (0 : Fin 2) = (i 0).val / 2048 := congrFun ht 0
  have q1 : win2_2.index t (1 : Fin 2) = (i 1).val / 1024 := congrFun ht 1
  refine ⟨t, flush2_2 t, ?_⟩
  rw [mem_blk]
  intro a
  match a with
  | ⟨0, _⟩ =>
    show win2_2.index t (0 : Fin 2) * 2048 ≤ (i 0).val ∧ (i 0).val < win2_2.index t (0 : Fin 2) * 2048 + 2048
    omega
  | ⟨1, _⟩ =>
    show win2_2.index t (1 : Fin 2) * 1024 ≤ (i 1).val ∧ (i 1).val < win2_2.index t (1 : Fin 2) * 1024 + 1024
    omega

/-- The result array after the region is the product of the two arrays as the region finds them. -/
theorem value (c : Dev nD) :
    (dat2 (F := Ideal) V c).arrAt 2 cfg2.N = Cert.Rbf.gram (V c main_v12) (V c main_v13) :=
  (dat2 (F := Ideal) V c).arrAt_eq_of_cover 2 _ (fun t _ => flushed_eq V c t) cover

end Cert.KernelIdeal.Region2

end
-- ==== Proof.HostTables.lean ====
import proofs.«173100_j65223373357286_1_alg».proof.Proof.Gen.KernelIdeal.Frame
import proofs.«173100_j65223373357286_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Run
set_option maxRecDepth 16384

noncomputable section

namespace Cert.KernelIdeal.HostTables

open Cert.KernelIdeal Cert.KernelIdeal.Gen Idealize.ShloMosaic Idealize.ShloMosaic.TcCoe Idealize.SL.Sem
open Idealize.ShloMosaic.Pipeline (Dat)
open Idealize.ShloMosaic.ValueIdx

/-!
  What the host operations before the first kernel leave in the buffers the kernels stage, as functions of the argument arrays.

  From the widths `s` and the centres `mu` (both [64, 512]) the host forms `r = 1 / (s * s)` entrywise, then the tables
  `r` and `mu * r` transposed to [512, 64], the row [1, 64] of the channel sums of `(mu * mu) * r`, the weights as a row
  [1, 64], and a row of ones. A transpose reads its operand at the swapped index, a reshape [64] → [1, 64] at the second
  coordinate, a broadcast scalar is its one word everywhere, and the host's sum is the initial word plus the sum over the
  reduced axis; every other operation is entrywise. The two feature arrays are written by no operation.
-/

variable (m : (ℓ : Loc nD τ sig) → Buf (Elt Ideal) ℓ) (ρ : Dev nD → PrngReg)

/-! ## Each kind of host operation read at an index, over variables of the literal shapes -/

/-- A [64,512] table transposed to [512,64] holds at (ch, k) the table's entry (k, ch). -/
theorem transpose_read (x : FVec Ideal S64x512 .f32) (j : S512x64.Idx) :
    transpose S512x64 [1, 0] x transposes_S64x512_S512x64_1_0 j = x (ix2 (j 1) (j 0)) :=
  transpose_apply [1, 0] x transposes_S64x512_S512x64_1_0 j (ix2 (j 1) (j 0)) (fun b => match b with
    | ⟨0, _⟩ => rfl
    | ⟨1, _⟩ => rfl)

/-- The reciprocal table `1 / (s * s)`, before it is transposed: at every index it is the specification's `invSq`
    (the broadcast scalar is the word of 1.0 at every index, the division and the product are entrywise). -/
theorem recip_read (s : FVec Ideal S64x512 .f32) (i : S64x512.Idx) :
    Host.divf (F := Ideal) (broadcastInDim S64x512 ![] bcast_S_S64x512 (constant (F := Ideal) S_ .f32 0x3F800000#32)) (mulf s s) i
      = Cert.Rbf.invSq s i := rfl

/-- A vector of 64 entries reshaped to one row [1,64] holds at (0, k) the vector's entry k. -/
theorem row_read (x : FVec Ideal S64 .f32) (j : S1x64.Idx) :
    shapeCast S1x64 x shapeCasts_S64_S1x64 j = x (ix1 (j 1)) := by
  refine (shapeCast_addUnit_apply ![64] x shapeCasts_S64_S1x64 j).trans ?_
  exact congrArg x (funext fun a => by match a with | ⟨0, _⟩ => rfl)

/-- The host's sum of a [64,512] table over its second axis: the initial word plus the sum over the 512 channels. -/
theorem rowsum_read (x : FVec Ideal S64x512 .f32) (init : FVec Ideal S_ .f32) (k : Fin 64) :
    Host.reduceAdd (F := Ideal) x init reducesTo_S64x512_S64_d1 h_S_ (ix1 k)
      = init (Shape.Idx.first h_S_) + ∑ ch : Fin 512, x (ix2 k ch) := by
  simp only [Host.reduceAdd, Ideal.hostReduceAdd_def]
  rw [Ideal.hostReduceAdd_single reducesTo_S64x512_S64_d1 (by decide)]
  refine congrArg (_ + ·) (Finset.sum_congr rfl fun ch _ => ?_)
  exact congrArg x (funext fun a => Fin.ext (by match a with | ⟨0, _⟩ => rfl | ⟨1, _⟩ => rfl))

/-! ## The composed terms at an index, as the specification's functions -/

/-- The transpose of `1 / (s * s)` is the specification's `invT`. -/
theorem inv_read (s : FVec Ideal S64x512 .f32) (j : S512x64.Idx) :
    transpose S512x64 [1, 0] (Host.divf (F := Ideal) (broadcastInDim S64x512 ![] bcast_S_S64x512 (constant (F := Ideal) S_ .f32 0x3F800000#32))
        (mulf s s)) transposes_S64x512_S512x64_1_0 j = Cert.Rbf.invT s j :=
  (transpose_read _ j).trans (recip_read s (ix2 (j 1) (j 0)))

/-- The transpose of `mu * (1 / (s * s))` is the specification's `meanT`. -/
theorem mean_read (mu s : FVec Ideal S64x512 .f32) (j : S512x64.Idx) :
    transpose S512x64 [1, 0] (mulf mu (Host.divf (F := Ideal) (broadcastInDim S64x512 ![] bcast_S_S64x512 (constant (F := Ideal) S_ .f32 0x3F800000#32))
        (mulf s s))) transposes_S64x512_S512x64_1_0 j = Cert.Rbf.meanT mu s j := by
  refine (transpose_read _ j).trans ?_
  refine (mulf_apply _ _ _).trans ?_
  exact congrArg (mu (ix2 (j 1) (j 0)) * ·) (recip_read s (ix2 (j 1) (j 0)))

/-- The row of channel sums of `(mu * mu) * (1 / (s * s))` is the specification's `offRow`. -/
theorem off_read (mu s : FVec Ideal S64x512 .f32) (j : S1x64.Idx) :
    shapeCast S1x64 (Host.reduceAdd (F := Ideal)
        (mulf (mulf mu mu) (Host.divf (F := Ideal) (broadcastInDim S64x512 ![] bcast_S_S64x512 (constant (F := Ideal) S_ .f32 0x3F800000#32)) (mulf s s)))
        (constant (F := Ideal) S_ .f32 0x00000000#32) reducesTo_S64x512_S64_d1 h_S_) shapeCasts_S64_S1x64 j
      = Cert.Rbf.offRow mu s j := by
  refine (row_read _ j).trans ?_
  refine (rowsum_read _ _ (j 1)).trans ?_
  refine congrArg (Cert.Rbf.zeroW + ·) (Finset.sum_congr rfl fun ch _ => ?_)
  refine (mulf_apply _ _ _).trans ?_
  exact congrArg ((mu (ix2 (j 1) ch) * mu (ix2 (j 1) ch)) * ·) (recip_read s (ix2 (j 1) ch))

/-! ## The arguments: no host operation writes them -/

theorem feat_i (c : Dev nD) : V1 m ρ c main_arg0 = m ((c : Thread nD τ).loc main_arg0) :=
  (StableHlo.after_of_forall_not_mem (b := Proc.devRef .tc main_arg0) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))).trans rfl

theorem feat_j (c : Dev nD) : V1 m ρ c main_arg1 = m ((c : Thread nD τ).loc main_arg1) :=
  (StableHlo.after_of_forall_not_mem (b := Proc.devRef .tc main_arg1) _ _ (List.forall_iff_forall_mem.mp (by
    simp only [hostOps0, List.Forall, StableHlo.nullary_writes, StableHlo.unary_writes, StableHlo.binary_writes,
      StableHlo.reshape_writes, Finset.mem_singleton]
    repeat' apply And.intro
    all_goals exact StableHlo.devRef_ne_of_ne (by decide)))).trans rfl

/-! ## The five tables: first the buffer as the composed term of the operations that wrote it, then that term at an index -/

/-- The reciprocal table's buffer is the transpose of `1 / (s * s)`. -/
theorem inv_term (c : Dev nD) :
    (V1 m ρ c main_v7 : S512x64.Idx → EReal)
      = transpose S512x64 [1, 0] (Host.divf (F := Ideal) (broadcastInDim S64x512 ![] bcast_S_S64x512 (constant (F := Ideal) S_ .f32 0x3F800000#32))
          (mulf (m ((c : Thread nD τ).loc main_arg3)) (m ((c : Thread nD τ).loc main_arg3)))) transposes_S64x512_S512x64_1_0 := by
  dsimp only [V1, W1, hostOps0]
  after_results

theorem inv_table (c : Dev nD) : V1 m ρ c main_v7 = Cert.Rbf.invT (m ((c : Thread nD τ).loc main_arg3)) :=
  (inv_term m ρ c).trans (funext fun j => inv_read _ j)

/-- The scaled-centre table's buffer is the transpose of `mu * (1 / (s * s))`. -/
theorem mean_term (c : Dev nD) :
    (V1 m ρ c main_v8 : S512x64.Idx → EReal)
      = transpose S512x64 [1, 0] (mulf (m ((c : Thread nD τ).loc main_arg2))
          (Host.divf (F := Ideal) (broadcastInDim S64x512 ![] bcast_S_S64x512 (constant (F := Ideal) S_ .f32 0x3F800000#32))
            (mulf (m ((c : Thread nD τ).loc main_arg3)) (m ((c : Thread nD τ).loc main_arg3))))) transposes_S64x512_S512x64_1_0 := by
  dsimp only [V1, W1, hostOps0]
  after_results

theorem mean_table (c : Dev nD) :
    V1 m ρ c main_v8 = Cert.Rbf.meanT (m ((c : Thread nD τ).loc main_arg2)) (m ((c : Thread nD τ).loc main_arg3)) :=
  (mean_term m ρ c).trans (funext fun j => mean_read _ _ j)

/-- The offset row's buffer is the host sum over the channels of `(mu * mu) * (1 / (s * s))`, reshaped to one row. -/
theorem off_term (c : Dev nD) :
    (V1 m ρ c main_v9 : S1x64.Idx → EReal)
      = shapeCast S1x64 (Host.reduceAdd (F := Ideal)
          (mulf (mulf (m ((c : Thread nD τ).loc main_arg2)) (m ((c : Thread nD τ).loc main_arg2)))
            (Host.divf (F := Ideal) (broadcastInDim S64x512 ![] bcast_S_S64x512 (constant (F := Ideal) S_ .f32 0x3F800000#32))
              (mulf (m ((c : Thread nD τ).loc main_arg3)) (m ((c : Thread nD τ).loc main_arg3)))))
          (constant (F := Ideal) S_ .f32 0x00000000#32) reducesTo_S64x512_S64_d1 h_S_) shapeCasts_S64_S1x64 := by
  dsimp only [V1, W1, hostOps0]
  after_results
  rfl

theorem off_row (c : Dev nD) :
    V1 m ρ c main_v9 = Cert.Rbf.offRow (m ((c : Thread nD τ).loc main_arg2)) (m ((c : Thread nD τ).loc main_arg3)) :=
  (off_term m ρ c).trans (funext fun j => off_read _ _ j)

/-- The weight row's buffer is the weights reshaped to one row. -/
theorem w_term (c : Dev nD) :
    (V1 m ρ c main_v10 : S1x64.Idx → EReal) = shapeCast S1x64 (m ((c : Thread nD τ).loc main_arg4)) shapeCasts_S64_S1x64 := by
  dsimp only [V1, W1, hostOps0]
  after_results
  rfl

theorem w_row (c : Dev nD) : V1 m ρ c main_v10 = Cert.Rbf.wRow (m ((c : Thread nD τ).loc main_arg4)) :=
  (w_term m ρ c).trans (funext fun j => row_read _ j)

/-- The row of ones is the word of 1.0 broadcast to [1,64]. -/
theorem ones_term (c : Dev nD) :
    (V1 m ρ c main_v11 : S1x64.Idx → EReal) = broadcastInDim S1x64 ![] bcast_S_S1x64 (constant (F := Ideal) S_ .f32 0x3F800000#32) := by
  dsimp only [V1, W1, hostOps0]
  after_results

theorem ones_row (c : Dev nD) : V1 m ρ c main_v11 = Cert.Rbf.onesRow :=
  (ones_term m ρ c).trans (funext fun j => rfl)

end Cert.KernelIdeal.HostTables

end
-- ==== Proof.Walk.lean ====
/-
  The kernel program's result array as ONE function of the five argument arrays.

  The run leaves in the result array what the third region's write-backs leave. That region contracts, over the 64 centres,
  the two response arrays the first two regions wrote; each of those is the expanded response of one feature array and of
  the four small tables the host operations computed before the first region; and no region writes an array it only reads,
  so every table a later region stages is still the host's. Read backwards through the boundaries between the regions this
  gives `kernelResult` of the arguments.
-/
import proofs.«173100_j65223373357286_1_alg».proof.Proof.Gen.KernelIdeal.Frame
import proofs.«173100_j65223373357286_1_alg».proof.Proof.Spec
import proofs.«173100_j65223373357286_1_alg».proof.Proof.Region0Value
import proofs.«173100_j65223373357286_1_alg».proof.Proof.Region1Value
import proofs.«173100_j65223373357286_1_alg».proof.Proof.Region2Value
import proofs.«173100_j65223373357286_1_alg».proof.Proof.HostTables

set_option maxRecDepth 16384

noncomputable section

namespace Cert.KernelIdeal.Walk

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## What the second region finds: the first region wrote none of the arrays it stages -/

/-- The second feature array is not among the first region's arrays. -/
theorem entry1_feat (c : Dev nD) : V2 m ρ c main_arg1 = V1 m ρ c main_arg1 :=
  W2_of_ne m ρ c main_arg1 (by decide)

/-- The row of ones is not among the first region's arrays. -/
theorem entry1_ones (c : Dev nD) : V2 m ρ c main_v11 = V1 m ρ c main_v11 :=
  W2_of_ne m ρ c main_v11 (by decide)

/-- The table of inverse squared widths is an INPUT of the first region: left as entered. -/
theorem entry1_inv (c : Dev nD) : V2 m ρ c main_v7 = V1 m ρ c main_v7 :=
  (W2_arr m ρ c 1).trans (((dat0 (V1 m ρ) c).arrAt_in 1 rfl _).trans (A_eq0 (V1 m ρ) c 1))

/-- The table of scaled centres is an input of the first region: left as entered. -/
theorem entry1_mean (c : Dev nD) : V2 m ρ c main_v8 = V1 m ρ c main_v8 :=
  (W2_arr m ρ c 2).trans (((dat0 (V1 m ρ) c).arrAt_in 2 rfl _).trans (A_eq0 (V1 m ρ) c 2))

/-- The offset row is an input of the first region: left as entered. -/
theorem entry1_off (c : Dev nD) : V2 m ρ c main_v9 = V1 m ρ c main_v9 :=
  (W2_arr m ρ c 3).trans (((dat0 (V1 m ρ) c).arrAt_in 3 rfl _).trans (A_eq0 (V1 m ρ) c 3))

/-! ## The two response arrays the third region finds -/

/-- The left responses: written by the first region, untouched by the second. -/
theorem left_resp (c : Dev nD) :
    V3 m ρ c main_v12
      = Cert.Rbf.respExpanded (m ((c : Thread nD τ).loc main_arg0)) (Cert.Rbf.invT (m ((c : Thread nD τ).loc main_arg3)))
          (Cert.Rbf.meanT (m ((c : Thread nD τ).loc main_arg2)) (m ((c : Thread nD τ).loc main_arg3)))
          (Cert.Rbf.offRow (m ((c : Thread nD τ).loc main_arg2)) (m ((c : Thread nD τ).loc main_arg3)))
          (Cert.Rbf.wRow (m ((c : Thread nD τ).loc main_arg4))) := by
  have h1 : V3 m ρ c main_v12 = V2 m ρ c main_v12 := W3_of_ne m ρ c main_v12 (by decide)
  have h2 : V2 m ρ c main_v12 = (dat0 (V1 m ρ) c).arrAt 5 cfg0.N := W2_arr m ρ c 5
  rw [h1, h2, Cert.KernelIdeal.Region0.value (V1 m ρ) c,
    Cert.KernelIdeal.HostTables.feat_i, Cert.KernelIdeal.HostTables.inv_table, Cert.KernelIdeal.HostTables.mean_table,
    Cert.KernelIdeal.HostTables.off_row, Cert.KernelIdeal.HostTables.w_row]

/-- The right responses: written by the second region, with the row of ones in the weights' place. -/
theorem right_resp (c : Dev nD) :
    V3 m ρ c main_v13
      = Cert.Rbf.respExpanded (m ((c : Thread nD τ).loc main_arg1)) (Cert.Rbf.invT (m ((c : Thread nD τ).loc main_arg3)))
          (Cert.Rbf.meanT (m ((c : Thread nD τ).loc main_arg2)) (m ((c : Thread nD τ).loc main_arg3)))
          (Cert.Rbf.offRow (m ((c : Thread nD τ).loc main_arg2)) (m ((c : Thread nD τ).loc main_arg3)))
          Cert.Rbf.onesRow := by
  have h1 : V3 m ρ c main_v13 = (dat1 (V2 m ρ) c).arrAt 5 cfg1.N := W3_arr m ρ c 5
  rw [h1, Cert.KernelIdeal.Region1.value (V2 m ρ) c, entry1_feat, entry1_inv, entry1_mean, entry1_off, entry1_ones,
    Cert.KernelIdeal.HostTables.feat_j, Cert.KernelIdeal.HostTables.inv_table, Cert.KernelIdeal.HostTables.mean_table,
    Cert.KernelIdeal.HostTables.off_row, Cert.KernelIdeal.HostTables.ones_row]

/-! ## The result array -/

/-- What the run leaves in the result array is `kernelResult` of the argument arrays. -/
theorem result_value (c : Dev nD) :
    W4 m ρ c (Proc.devRef .tc main_v14)
      = Cert.Rbf.kernelResult (m ((c : Thread nD τ).loc main_arg0)) (m ((c : Thread nD τ).loc main_arg1))
          (m ((c : Thread nD τ).loc main_arg2)) (m ((c : Thread nD τ).loc main_arg3)) (m ((c : Thread nD τ).loc main_arg4)) := by
  have h : W4 m ρ c (Proc.devRef .tc main_v14) = (dat2 (V3 m ρ) c).arrAt 2 cfg2.N := W4_arr m ρ c 2
  rw [h, Cert.KernelIdeal.Region2.value (V3 m ρ) c, left_resp, right_resp]
  rfl

end Cert.KernelIdeal.Walk

end
-- ==== Proof.RefValue.lean ====
import proofs.«173100_j65223373357286_1_alg».proof.Defs
import proofs.«173100_j65223373357286_1_alg».proof.Proof.Gen.ReferenceIdeal.Run
import proofs.«173100_j65223373357286_1_alg».proof.Proof.Gen.ReferenceIdeal.Read
import proofs.«173100_j65223373357286_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Idealize.ShloMosaic Idealize.ShloMosaic.TcCoe Idealize.SL.Sem
open Idealize.ShloMosaic.ValueIdx
open Cert.ReferenceIdeal.Read

/-- The exponent of the left operand: at row `n` and centre `k` the host's chain (two broadcasts of the features and of each table,
    a difference, a quotient, a square, the sum over the 512 channels, a negation) is the negated squared scaled distance. -/
theorem negSqDist_left (x0 : Cert.Rbf.Feat.Idx → EReal) (x2 x3 : Cert.Rbf.Tab.Idx → EReal) (n : Fin 8192) (k : Fin 64) :
    val_main_v10 (F := Ideal) x0 x2 x3 (ix2 n k) = Cert.Rbf.negSqDist x0 x2 x3 (ix2 n k) := by
  rw [val_main_v10_apply, val_main_v9_apply, val_main_cst_apply]
  unfold Cert.Rbf.negSqDist
  simp only [Ideal.hostNegf_def, Ideal.negf_def, Ideal.ofBits_def]
  refine congrArg (fun s => -(_ + s)) (Finset.sum_congr rfl fun c _ => ?_)
  rw [val_main_v8_apply, val_main_v7_apply, val_main_v4_apply, val_main_v6_apply, val_main_v5_apply,
    val_main_v2_apply, val_main_v3_apply, val_main_v0_apply, val_main_v1_apply]
  -- the composed broadcasts read the features at (n, c) and both tables at (k, c)
  have e0 : idx_main_v0 (idx_main_v2 (idx_main_v9 (ix2 n k) c)) = ix2 n c :=
    funext fun a => Fin.ext (by match a with | ⟨0, _⟩ => rfl | ⟨1, _⟩ => rfl)
  have e1 : idx_main_v1 (idx_main_v3 (idx_main_v9 (ix2 n k) c)) = ix2 k c :=
    funext fun a => Fin.ext (by match a with | ⟨0, _⟩ => rfl | ⟨1, _⟩ => rfl)
  have e2 : idx_main_v5 (idx_main_v6 (idx_main_v9 (ix2 n k) c)) = ix2 k c :=
    funext fun a => Fin.ext (by match a with | ⟨0, _⟩ => rfl | ⟨1, _⟩ => rfl)
  rw [e0, e1, e2]
  simp only [Ideal.subf_def, Ideal.mulf_def, Ideal.hostDivf_def]

/-- The exponent of the right operand: the same chain over the second feature array. -/
theorem negSqDist_right (x1 : Cert.Rbf.Feat.Idx → EReal) (x2 x3 : Cert.Rbf.Tab.Idx → EReal) (m : Fin 8192) (k : Fin 64) :
    val_main_v21 (F := Ideal) x1 x2 x3 (ix2 m k) = Cert.Rbf.negSqDist x1 x2 x3 (ix2 m k) := by
  rw [val_main_v21_apply, val_main_v20_apply, val_main_cst_0_apply]
  unfold Cert.Rbf.negSqDist
  simp only [Ideal.hostNegf_def, Ideal.negf_def, Ideal.ofBits_def]
  refine congrArg (fun s => -(_ + s)) (Finset.sum_congr rfl fun c _ => ?_)
  rw [val_main_v19_apply, val_main_v18_apply, val_main_v15_apply, val_main_v17_apply, val_main_v16_apply,
    val_main_v13_apply, val_main_v14_apply, val_main_v11_apply, val_main_v12_apply]
  have e0 : idx_main_v11 (idx_main_v13 (idx_main_v20 (ix2 m k) c)) = ix2 m c :=
    funext fun a => Fin.ext (by match a with | ⟨0, _⟩ => rfl | ⟨1, _⟩ => rfl)
  have e1 : idx_main_v12 (idx_main_v14 (idx_main_v20 (ix2 m k) c)) = ix2 k c :=
    funext fun a => Fin.ext (by match a with | ⟨0, _⟩ => rfl | ⟨1, _⟩ => rfl)
  have e2 : idx_main_v16 (idx_main_v17 (idx_main_v20 (ix2 m k) c)) = ix2 k c :=
    funext fun a => Fin.ext (by match a with | ⟨0, _⟩ => rfl | ⟨1, _⟩ => rfl)
  rw [e0, e1, e2]
  simp only [Ideal.subf_def, Ideal.mulf_def, Ideal.hostDivf_def]

/-- The left operand of the contraction: the exponential of the exponent times the centre's weight, the weights broadcast along the rows. -/
theorem resp_left (x0 : Cert.Rbf.Feat.Idx → EReal) (x2 x3 : Cert.Rbf.Tab.Idx → EReal) (x4 : Cert.Rbf.Wts.Idx → EReal)
    (n : Fin 8192) (k : Fin 64) :
    val_main_v25 (F := Ideal) x0 x2 x3 x4 (ix2 n k) = Cert.Rbf.respRef x0 x2 x3 x4 (ix2 n k) := by
  rw [val_main_v25_apply, val_main_v22_apply, val_main_v24_apply, val_main_v23_apply, negSqDist_left]
  have e : idx_main_v23 (idx_main_v24 (ix2 n k)) = ix1 k :=
    funext fun a => Fin.ext (by match a with | ⟨0, _⟩ => rfl)
  rw [e]
  unfold Cert.Rbf.respRef
  simp only [Ideal.mulf_def, Ideal.hostUnary_exp_def]

/-- The right operand of the contraction, laid out [64, 8192]: at (k, m) it is the unweighted response of row `m` to centre `k`. -/
theorem resp_right (x1 : Cert.Rbf.Feat.Idx → EReal) (x2 x3 : Cert.Rbf.Tab.Idx → EReal) (k : Fin 64) (m : Fin 8192) :
    val_main_v27 (F := Ideal) x1 x2 x3 (ix2 k m) = Cert.Rbf.respRefPlain x1 x2 x3 (ix2 m k) := by
  rw [val_main_v27_apply]
  have e : idx_main_v27 (ix2 k m) = ix2 m k :=
    funext fun a => Fin.ext (by match a with | ⟨0, _⟩ => rfl | ⟨1, _⟩ => rfl)
  rw [e, val_main_v26_apply, negSqDist_right]
  unfold Cert.Rbf.respRefPlain
  simp only [Ideal.hostUnary_exp_def]

/-- The reference's result: the contraction over the 64 centres of the weighted response of row `i 0` against the unweighted
    response of row `i 1`. -/
theorem result_eq (x0 x1 : Cert.Rbf.Feat.Idx → EReal) (x2 x3 : Cert.Rbf.Tab.Idx → EReal) (x4 : Cert.Rbf.Wts.Idx → EReal) :
    val_main_v28 (F := Ideal) x0 x1 x2 x3 x4 = Cert.Rbf.referenceResult x0 x1 x2 x3 x4 := by
  funext i
  -- name the two rows of the result's index
  obtain ⟨n, m, rfl⟩ : ∃ (n : Fin 8192) (m : Fin 8192), i = ix2 n m := ⟨i 0, i 1, eq_ix2 i⟩
  rw [val_main_v28_apply]
  unfold Cert.Rbf.referenceResult Cert.Rbf.gram
  refine Finset.sum_congr rfl fun k _ => ?_
  have el : lidx_main_v28 (ix2 n m) k = ix2 n k :=
    funext fun a => Fin.ext (by match a with | ⟨0, _⟩ => rfl | ⟨1, _⟩ => rfl)
  have er : ridx_main_v28 (ix2 n m) k = ix2 k m :=
    funext fun a => Fin.ext (by match a with | ⟨0, _⟩ => rfl | ⟨1, _⟩ => rfl)
  rw [el, er, resp_left, resp_right]

end Cert.ReferenceIdeal.RefValue

end
-- ==== Proof.PreFacts.lean ====
import proofs.«173100_j65223373357286_1_alg».proof.Pre_finite_inputs
import proofs.«173100_j65223373357286_1_alg».proof.Proof.Spec
import Idealize.ShloMosaic.Lib.ReduceAll
import Idealize.ShloMosaic.Lib.ValueIdx
import Idealize.ShloMosaic.PureOps.Ideal.Laws

noncomputable section

namespace Cert.PreFacts

open Idealize.ShloMosaic Idealize.ShloMosaic.ValueIdx Cert.Rbf

/-- The scalar shape has exactly one index (an index is a function out of the empty set of axes). -/
theorem scalar_subsingleton : Subsingleton Cert.Pre_finite_inputs.S_.Idx := ⟨fun a b => funext fun d => d.elim0⟩

/-- On the extended reals, `max x (-x) < +inf` (the comparison read as an `i1`) says `x` is a real number:
    at `⊥` the maximum is `-⊥ = ⊤`, at `⊤` it is `⊤`, and `⊤ < ⊤` is false. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

/-- On the extended reals, `0 < max x (-x)` (the comparison read as an `i1`) says `x ≠ 0`: at `0` the maximum is `0`. -/
theorem ne_zero_of_abs_gt_zero (x : EReal)
    (h : Ideal.cmp .ogt (max x (-x)) (Ideal.ofBits .f32 0x00000000#32) = 1#1) : x ≠ 0 := by
  rw [Ideal.ofBits_zero_f32] at h
  rintro rfl
  simp [Ideal.cmp] at h

open Cert.Pre_finite_inputs in
/-- The conjunction over all indices of `|x| < +inf` being 1 says every entry of `x` is a real number: the reduction by `and`
    over all axes is 1 only if the comparison is 1 at every index, and there the broadcast scalar reads as the word of `+inf`. -/
theorem allReal_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
        (cmpf .olt (Host.absf x) (broadcastInDim S ![] hb (constant (F := Ideal) S_ .f32 0x7F800000#32)))
        (constantI S_ 1 1#1) hr hu ix0 = 1#1) : AllReal (S := S) x := by
  intro i
  haveI := scalar_subsingleton
  have hi := Host.reduce_andi_all _ _ hr hu ix0 e i
  exact real_of_abs_lt_inf (x i) hi

open Cert.Pre_finite_inputs in
/-- The conjunction over all indices of `|x| > 0` being 1 says no entry of `x` is zero. -/
theorem noZero_of_all {S : Shape} {axes : List (Fin S.rank)} (x : FVec Ideal S .f32)
    (hb : S_.BroadcastsInDim S (![] : Fin 0 → Fin S.rank)) (hr : S.ReducesTo axes S_) (hu : 0 < S_.numel)
    (e : Host.reduce IntOp.andi
        (cmpf .ogt (Host.absf x) (broadcastInDim S ![] hb (constant (F := Ideal) S_ .f32 0x00000000#32)))
        (constantI S_ 1 1#1) hr hu ix0 = 1#1) : NoZero (S := S) x := by
  intro i
  haveI := scalar_subsingleton
  have hi := Host.reduce_andi_all _ _ hr hu ix0 e i
  exact ne_zero_of_abs_gt_zero (x i) hi

variable [Cert.Pre_finite_inputs.Facts]

theorem of_pre (x0 x1 : Feat.Idx → EReal) (x2 x3 : Tab.Idx → EReal) (x4 : Wts.Idx → EReal)
    (h : Cert.Pre_finite_inputs.fn (F := Ideal) x0 x1 x2 x3 x4 = fun _ => 1#1) :
    AllReal x0 ∧ AllReal x1 ∧ AllReal x2 ∧ AllReal x3 ∧ AllReal x4 ∧ NoZero x3 := by
  have h0 := congrFun h ValueIdx.ix0
  dsimp only [Cert.Pre_finite_inputs.fn, Cert.Pre_finite_inputs.fn_part1] at h0
  obtain ⟨h0, c5⟩ := IntOp.andi_eq_one.1 h0
  obtain ⟨h0, c4⟩ := IntOp.andi_eq_one.1 h0
  obtain ⟨h0, c3⟩ := IntOp.andi_eq_one.1 h0
  obtain ⟨h0, c2⟩ := IntOp.andi_eq_one.1 h0
  obtain ⟨c0, c1⟩ := IntOp.andi_eq_one.1 h0
  exact ⟨allReal_of_all x0 _ _ _ c0, allReal_of_all x1 _ _ _ c1, allReal_of_all x2 _ _ _ c2, allReal_of_all x3 _ _ _ c3,
    allReal_of_all x4 _ _ _ c4, noZero_of_all x3 _ _ _ c5⟩

end Cert.PreFacts

end
-- ==== Proof.Algebra.lean ====
import proofs.«173100_j65223373357286_1_alg».proof.Proof.Spec
import Idealize.ShloMosaic.PureOps.Ideal.Laws
import Mathlib.Tactic.Ring
import Mathlib.Tactic.FieldSimp

noncomputable section

namespace Cert.Rbf

open Idealize.ShloMosaic Idealize.ShloMosaic.ValueIdx

/-! ## The three float words as real numbers -/

/-- The word of `+0.0` denotes the real `0`. -/
theorem zeroW_eq : zeroW = ((0 : ℝ) : EReal) := by
  rw [EReal.coe_zero]; exact Ideal.ofBits_zero_f32

/-- The word of `1.0` denotes the real `1`. -/
theorem oneW_eq : oneW = ((1 : ℝ) : EReal) := by
  simp [Ideal.ofBits, Ideal.ieee, -EReal.coe_mul]; norm_num

/-- The word of `2.0` denotes the real `2`. -/
theorem twoW_eq : twoW = ((2 : ℝ) : EReal) := by
  simp [Ideal.ofBits, Ideal.ieee, -EReal.coe_mul]; norm_num

/-! ## The expansion of the square, over the reals -/

/-- A finite sum of real numbers, read in the extended reals, is the real sum. -/
theorem coe_sum {ι : Type*} (t : Finset ι) (g : ι → ℝ) :
    ∑ c ∈ t, ((g c : ℝ) : EReal) = ((∑ c ∈ t, g c : ℝ) : EReal) := by
  classical
  induction t using Finset.induction_on with
  | empty => simp
  | insert a t ha ih => rw [Finset.sum_insert ha, Finset.sum_insert ha, ih, EReal.coe_add]

/-- One term: `((a - b) / σ)² = a² r - 2 a (b r) + b² r` with `r = 1 / (σ σ)`, for `σ ≠ 0`. -/
theorem sq_scaled_real (a b σ : ℝ) (hσ : σ ≠ 0) :
    (a - b) * (1 / σ) * ((a - b) * (1 / σ))
      = a * a * (1 / (σ * σ)) - 2 * (a * (b * (1 / (σ * σ)))) + b * b * (1 / (σ * σ)) := by
  field_simp; ring

/-- The terms summed: the expanded exponent is the negated sum of scaled squares. -/
theorem exponent_real {ι : Type*} [Fintype ι] (a b σ : ι → ℝ) (hσ : ∀ c, σ c ≠ 0) :
    ((0 - ∑ c, a c * a c * (1 / (σ c * σ c))) + 2 * ∑ c, a c * (b c * (1 / (σ c * σ c))))
        - (0 + ∑ c, b c * b c * (1 / (σ c * σ c)))
      = -(0 + ∑ c, (a c - b c) * (1 / σ c) * ((a c - b c) * (1 / σ c))) := by
  rw [Finset.sum_congr rfl (fun c _ => sq_scaled_real (a c) (b c) (σ c) (hσ c)), Finset.sum_add_distrib,
    Finset.sum_sub_distrib, ← Finset.mul_sum]
  ring

/-! ## The same law over the extended reals, every entry a real number -/

/-- The expansion with the entries real numbers read in the extended reals, the reciprocal already a real. -/
theorem exponent_ereal {ι : Type*} [Fintype ι] (a b σ : ι → ℝ) (hσ : ∀ c, σ c ≠ 0) :
    ((zeroW - ∑ c, ((a c : EReal) * (a c : EReal)) * ((1 / (σ c * σ c) : ℝ) : EReal))
        + twoW * ∑ c, (a c : EReal) * ((b c : EReal) * ((1 / (σ c * σ c) : ℝ) : EReal)))
        - (zeroW + ∑ c, ((b c : EReal) * (b c : EReal)) * ((1 / (σ c * σ c) : ℝ) : EReal))
      = -(zeroW + ∑ c, Ideal.div ((a c : EReal) - (b c : EReal)) (σ c : EReal)
            * Ideal.div ((a c : EReal) - (b c : EReal)) (σ c : EReal)) := by
  have h1 : ∀ c, ((a c : EReal) * (a c : EReal)) * ((1 / (σ c * σ c) : ℝ) : EReal)
      = ((a c * a c * (1 / (σ c * σ c)) : ℝ) : EReal) := fun c => by
    rw [← EReal.coe_mul, ← EReal.coe_mul]
  have h2 : ∀ c, (a c : EReal) * ((b c : EReal) * ((1 / (σ c * σ c) : ℝ) : EReal))
      = ((a c * (b c * (1 / (σ c * σ c))) : ℝ) : EReal) := fun c => by
    rw [← EReal.coe_mul, ← EReal.coe_mul]
  have h3 : ∀ c, ((b c : EReal) * (b c : EReal)) * ((1 / (σ c * σ c) : ℝ) : EReal)
      = ((b c * b c * (1 / (σ c * σ c)) : ℝ) : EReal) := fun c => by
    rw [← EReal.coe_mul, ← EReal.coe_mul]
  have h4 : ∀ c, Ideal.div ((a c : EReal) - (b c : EReal)) (σ c : EReal)
        * Ideal.div ((a c : EReal) - (b c : EReal)) (σ c : EReal)
      = (((a c - b c) * (1 / σ c) * ((a c - b c) * (1 / σ c)) : ℝ) : EReal) := fun c => by
    rw [Ideal.div_coe (hσ c), ← EReal.coe_sub, ← EReal.coe_mul, ← EReal.coe_mul]
  rw [Finset.sum_congr rfl (fun c _ => h1 c), Finset.sum_congr rfl (fun c _ => h2 c),
    Finset.sum_congr rfl (fun c _ => h3 c), Finset.sum_congr rfl (fun c _ => h4 c),
    coe_sum, coe_sum, coe_sum, coe_sum, zeroW_eq, twoW_eq]
  exact_mod_cast exponent_real a b σ hσ

/-- The reciprocal table at an entry: `1 / (σ σ)` as a real number, for `σ ≠ 0`. -/
theorem invSq_coe (s : Tab.Idx → EReal) (S : Tab.Idx → ℝ) (hS : ∀ j, s j = (S j : EReal)) (hS0 : ∀ j, S j ≠ 0)
    (j : Tab.Idx) : invSq s j = ((1 / (S j * S j) : ℝ) : EReal) := by
  unfold invSq
  rw [hS j, ← EReal.coe_mul, Ideal.div_coe (mul_ne_zero (hS0 j) (hS0 j)), oneW_eq, ← EReal.coe_mul, one_mul]

/-- At a row and a centre the kernel's expanded exponent is the reference's negated squared scaled distance. -/
theorem exponent_eq (f : Feat.Idx → EReal) (mu s : Tab.Idx → EReal) (F : Feat.Idx → ℝ) (M S : Tab.Idx → ℝ)
    (hF : ∀ i, f i = (F i : EReal)) (hM : ∀ j, mu j = (M j : EReal)) (hS : ∀ j, s j = (S j : EReal))
    (hS0 : ∀ j, S j ≠ 0) (i : Resp.Idx) :
    ((zeroW - ∑ c : Fin 512, (f (ix2 (i 0) c) * f (ix2 (i 0) c)) * invT s (ix2 c (i 1)))
        + twoW * ∑ c : Fin 512, f (ix2 (i 0) c) * meanT mu s (ix2 c (i 1))) - offRow mu s (ix2 0 (i 1))
      = negSqDist f mu s i := by
  have key := exponent_ereal (fun c : Fin 512 => F (ix2 (i 0) c)) (fun c : Fin 512 => M (ix2 (i 1) c))
    (fun c : Fin 512 => S (ix2 (i 1) c)) (fun c => hS0 _)
  unfold negSqDist invT meanT offRow
  simp only [hF, hM, hS, invSq_coe s S hS hS0]
  exact key

/-! ## The two programs' results -/

theorem kernelResult_eq_referenceResult (fi fj : Feat.Idx → EReal) (mu s : Tab.Idx → EReal) (w : Wts.Idx → EReal)
    (hfi : AllReal fi) (hfj : AllReal fj) (hmu : AllReal mu) (hs : AllReal s) (hw : AllReal w) (hs0 : NoZero s) :
    kernelResult fi fj mu s w = referenceResult fi fj mu s w := by
  have hfi' : ∀ i, ∃ r : ℝ, fi i = (r : EReal) := hfi
  have hfj' : ∀ i, ∃ r : ℝ, fj i = (r : EReal) := hfj
  have hmu' : ∀ i, ∃ r : ℝ, mu i = (r : EReal) := hmu
  have hs' : ∀ i, ∃ r : ℝ, s i = (r : EReal) := hs
  choose Fi hFi using hfi'
  choose Fj hFj using hfj'
  choose M hM using hmu'
  choose S hS using hs'
  have hS0 : ∀ j, S j ≠ 0 := fun j h0 => hs0 j (by rw [hS j, h0]; rfl)
  -- the weighted response: equal exponents, the same weight
  have h1 : respExpanded fi (invT s) (meanT mu s) (offRow mu s) (wRow w) = respRef fi mu s w := by
    funext i
    unfold respExpanded respRef
    rw [exponent_eq fi mu s Fi M S hFi hM hS hS0 i]
    rfl
  -- the unweighted response: equal exponents, times one
  have h2 : respExpanded fj (invT s) (meanT mu s) (offRow mu s) onesRow = respRefPlain fj mu s := by
    funext i
    unfold respExpanded respRefPlain
    rw [exponent_eq fj mu s Fj M S hFj hM hS hS0 i]
    show _ * oneW = _
    rw [oneW_eq, EReal.coe_one, mul_one]
  unfold kernelResult referenceResult
  rw [h1, h2]

end Cert.Rbf

end
-- ==== Proof.lean ====
/-
  Pairwise multi-centre Gaussian similarity: `out n m = ∑ k, (exp (-‖(f_i n - mu k) / s k‖²) * w k) * exp (-‖(f_j m - mu k) / s k‖²)`.

  The reference computes the scaled differences and sums their squares. The kernel expands the square,
  `((f - mu) / s)² = f² * r - 2 * f * (mu * r) + mu² * r` with `r = 1 / (s * s)`, so that the sums over the 512 channels become
  two contractions of a row of `f` against small tables, computed once on the host, plus a per-centre offset; two launches
  of that response kernel (one weighted, one with a row of ones) feed a third that contracts over the 64 centres.

  The expansion is an identity of real numbers when the width `s` is not zero, which the precondition states (beside every
  input being finite); at `s = 0` the reference itself divides by zero. Under it both programs' results are
  the same function of the arguments, index by index:
    * the kernel's result array, read back through the three regions (Walk.lean over the three region values and the host
      tables), is `kernelResult`;
    * the reference's run (its generated run, read one operation at a time) is `referenceResult`;
    * the two agree for finite inputs with no zero width (Algebra.lean), which the precondition gives (PreFacts.lean).
  The three frames are the generated ones; the ideal pass rewrote nothing, so `preserves` has nothing to state.
-/
import proofs.«173100_j65223373357286_1_alg».proof.Defs
import proofs.«173100_j65223373357286_1_alg».proof.Proof.Gen.Kernel
import proofs.«173100_j65223373357286_1_alg».proof.Proof.Gen.Kernel.Frame
import proofs.«173100_j65223373357286_1_alg».proof.Proof.Gen.KernelIdeal
import proofs.«173100_j65223373357286_1_alg».proof.Proof.Gen.KernelIdeal.Frame
import proofs.«173100_j65223373357286_1_alg».proof.Proof.Gen.ReferenceIdeal
import proofs.«173100_j65223373357286_1_alg».proof.Proof.Gen.ReferenceIdeal.Run
import proofs.«173100_j65223373357286_1_alg».proof.Proof.Gen.ReferenceIdeal.Read
import proofs.«173100_j65223373357286_1_alg».proof.Proof.Gen.Pre_finite_inputs
import proofs.«173100_j65223373357286_1_alg».proof.Proof.Spec
import proofs.«173100_j65223373357286_1_alg».proof.Proof.KRun
import proofs.«173100_j65223373357286_1_alg».proof.Proof.Walk
import proofs.«173100_j65223373357286_1_alg».proof.Proof.RefValue
import proofs.«173100_j65223373357286_1_alg».proof.Proof.PreFacts
import proofs.«173100_j65223373357286_1_alg».proof.Proof.Algebra

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the same array: `kernelResult` of the arguments on the kernel's side, `referenceResult` of the
    same arguments on the reference's, equal because the precondition makes every entry finite and no width zero. -/
theorem algebraic : Cert.algebraic_KernelIdeal_ReferenceIdeal := by
  intro m ρ m' ρ' hpre hagree
  refine ⟨fun c => Cert.Rbf.kernelResult
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.Walk.result_value m ρ c), (h c).2⟩)
      (Cert.KernelIdeal.Named.run_named (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, hz⟩ := Cert.PreFacts.of_pre _ _ _ _ _ (hpre c)
    rw [(h c).1, Cert.ReferenceIdeal.Read.val_main_v28_eq, Cert.ReferenceIdeal.RefValue.result_eq,
      (hagree c).1, (hagree c).2.1, (hagree c).2.2.1, (hagree c).2.2.2.1, (hagree c).2.2.2.2]
    exact (Cert.Rbf.kernelResult_eq_referenceResult _ _ _ _ _ h0 h1 h2 h3 h4 hz).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
